-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S256x16 : Shape := ⟨2, ![256, 16]⟩
abbrev S16x256 : Shape := ⟨2, ![16, 256]⟩
abbrev S524288 : Shape := ⟨1, ![524288]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg3 : IVec S524288 32) (main_v13 : IVec S_ 1) (main_v15 : IVec S524288 1) (main_c_5 : IVec S_ 1) : IVec S_ 1 :=
  let main_v16 : IVec S_ 1 := (fun x v => Host.reduce IntOp.andi x v reducesTo_S524288_S_d0 h_S_) main_v15 main_c_5
  let main_v17 : IVec S_ 1 := andi main_v13 main_v16
  let main_c_6 : IVec S_ 32 := constantI S_ 32 8#32
  let main_v18 : IVec S524288 32 := broadcastInDim S524288 ![] bcast_S_S524288 main_c_6
  let main_v19 : IVec S524288 1 := cmpi .slt main_arg3 main_v18
  let main_c_7 : IVec S_ 1 := constantI S_ 1 1#1
  let main_v20 : IVec S_ 1 := (fun x v => Host.reduce IntOp.andi x v reducesTo_S524288_S_d0 h_S_) main_v19 main_c_7
  let main_v21 : IVec S_ 1 := andi main_v17 main_v20
  main_v21

def fn {F : FTy → Type} [FloatOps F] (main_arg0 : FVec F S524288x256 .f32) (main_arg1 : FVec F S256x16 .f32) (main_arg2 : FVec F S16x256 .f32) (main_arg3 : IVec S524288 32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_c_4 : IVec S_ 32 := constantI S_ 32 0#32
  let main_v14 : IVec S524288 32 := broadcastInDim S524288 ![] bcast_S_S524288 main_c_4
  let main_v15 : IVec S524288 1 := cmpi .sge main_arg3 main_v14
  let main_c_5 : IVec S_ 1 := constantI S_ 1 1#1
  fn_part1 (F := F) main_arg3 main_v13 main_v15 main_c_5
-- ==== Kernel.lean ====
abbrev S524288x256 : Shape := ⟨2, ![524288, 256]⟩
abbrev S256x16 : Shape := ⟨2, ![256, 16]⟩
abbrev S16x256 : Shape := ⟨2, ![16, 256]⟩
abbrev S524288 : Shape := ⟨1, ![524288]⟩
abbrev S524288x1 : Shape := ⟨2, ![524288, 1]⟩
abbrev S8x256 : Shape := ⟨2, ![8, 256]⟩
abbrev S8192x256 : Shape := ⟨2, ![8192, 256]⟩
abbrev S8192x1 : Shape := ⟨2, ![8192, 1]⟩
abbrev S8x1 : Shape := ⟨2, ![8, 1]⟩
abbrev S8192x8 : Shape := ⟨2, ![8192, 8]⟩
abbrev S8x16 : Shape := ⟨2, ![8, 16]⟩

abbrev nBuf : Space → Nat
  | .hbm => 7
  | .vmem => 16
  | .smem => 0
  | _ => 0

abbrev bufTy : (tb : Table) → Fin (tcTables nBuf tb) → BufTy
  | .hbm, ⟨0, _⟩ => ⟨S524288x256, .f32⟩
  | .hbm, ⟨1, _⟩ => ⟨S256x16, .f32⟩
  | .hbm, ⟨2, _⟩ => ⟨S16x256, .f32⟩
  | .hbm, ⟨3, _⟩ => ⟨S524288, .i32⟩
  | .hbm, ⟨4, _⟩ => ⟨S524288x1, .i32⟩
  | .hbm, ⟨5, _⟩ => ⟨S8x256, .f32⟩
  | .hbm, ⟨6, _⟩ => ⟨S524288x256, .f32⟩
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S8192x1, .i32⟩
  | .local _ .vmem, ⟨4, _⟩ => ⟨S256x16, .f32⟩
  | .local _ .vmem, ⟨5, _⟩ => ⟨S16x256, .f32⟩
  | .local _ .vmem, ⟨6, _⟩ => ⟨S8x256, .f32⟩
  | .local _ .vmem, ⟨7, _⟩ => ⟨S8x256, .f32⟩
  | .local _ .vmem, ⟨8, _⟩ => ⟨S8x1, .f32⟩
  | .local _ .vmem, ⟨9, _⟩ => ⟨S8192x256, .f32⟩
  | .local _ .vmem, ⟨10, _⟩ => ⟨S8192x256, .f32⟩
  | .local _ .vmem, ⟨11, _⟩ => ⟨S8192x1, .i32⟩
  | .local _ .vmem, ⟨12, _⟩ => ⟨S8192x1, .i32⟩
  | .local _ .vmem, ⟨13, _⟩ => ⟨S8x256, .f32⟩
  | .local _ .vmem, ⟨14, _⟩ => ⟨S8192x256, .f32⟩
  | .local _ .vmem, ⟨15, _⟩ => ⟨S8192x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S524288_S524288x1 : S524288.ShapeCasts S524288x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8192x256_S8192x256_0_0 : ∀ a, (![0, 0] : Fin 2 → Nat) a + S8192x256.size a ≤ S8192x256.size a
  h_S8192x256 : 0 < S8192x256.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x8_d1_w32 : S8192x8.Iotas .tc 32 [1]
  broadcasts_S8192x1_S8192x8 : S8192x1.Broadcasts S8192x8
  natLt_1_32 : 1 < 32
  broadcasts_S8x1_S8x256 : S8x1.Broadcasts S8x256
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  dot_S8192x8_S8192x256_S8x256_0_0_1_1_n_n_wf : DotDims.WF S8192x8 S8192x256 S8x256 [0] [0] [1] [1] [] []
  dot_S8192x8_S8192x1_S8x1_0_0_1_1_n_n_wf : DotDims.WF S8192x8 S8192x1 S8x1 [0] [0] [1] [1] [] []
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  dot_S8192x8_S8x256_S8192x256_1_0_0_1_n_n_wf : DotDims.WF S8192x8 S8x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .f32 = 32 ∨ (Rect.block (s := S524288x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S524288x1.size a
  hwx0_1 : ∀ i : grid0.Coords, EltTy.bits .i32 = 32 ∨ (Rect.block (s := S524288x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x256.size a
  hwx0_4 : ∀ i : grid0.Coords, EltTy.bits .f32 = 32 ∨ (Rect.block (s := S8x256) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S524288x256.size a
  hwx1_0 : ∀ i : grid1.Coords, EltTy.bits .f32 = 32 ∨ (Rect.block (s := S524288x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S524288x1.size a
  hwx1_1 : ∀ i : grid1.Coords, EltTy.bits .i32 = 32 ∨ (Rect.block (s := S524288x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x256.size a
  hwx1_2 : ∀ i : grid1.Coords, EltTy.bits .f32 = 32 ∨ (Rect.block (s := S8x256) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S524288x256.size a
  hwx1_3 : ∀ i : grid1.Coords, EltTy.bits .f32 = 32 ∨ (Rect.block (s := S524288x256) S8192x256.size (cc1_transform_3 i) (hinb1_3 i)).WholeWords (EltTy.packing .f32)

variable [Facts₀]

def dot_S8192x8_S8192x256_S8x256_0_0_1_1_n_n : DotDims S8192x8 S8192x256 S8x256 where
  lhsContracting := [0]
  rhsContracting := [0]
  lhsNonContracting := [1]
  rhsNonContracting := [1]
  lhsBatch := []
  rhsBatch := []
  wf := dot_S8192x8_S8192x256_S8x256_0_0_1_1_n_n_wf
def dot_S8192x8_S8192x1_S8x1_0_0_1_1_n_n : DotDims S8192x8 S8192x1 S8x1 where
  lhsContracting := [0]
  rhsContracting := [0]
  lhsNonContracting := [1]
  rhsNonContracting := [1]
  lhsBatch := []
  rhsBatch := []
  wf := dot_S8192x8_S8192x1_S8x1_0_0_1_1_n_n_wf
def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf
def dot_S8192x8_S8x256_S8192x256_1_0_0_1_n_n : DotDims S8192x8 S8x256 S8192x256 where
  lhsContracting := [1]
  rhsContracting := [0]
  lhsNonContracting := [0]
  rhsNonContracting := [1]
  lhsBatch := []
  rhsBatch := []
  wf := dot_S8192x8_S8x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8192x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S524288x256 : Shape := ⟨2, ![524288, 256]⟩
abbrev S256x16 : Shape := ⟨2, ![256, 16]⟩
abbrev S16x256 : Shape := ⟨2, ![16, 256]⟩
abbrev S524288 : Shape := ⟨1, ![524288]⟩
abbrev S_ : Shape := ⟨0, ![]⟩
abbrev S8x256 : Shape := ⟨2, ![8, 256]⟩
abbrev S524288x1 : Shape := ⟨2, ![524288, 1]⟩
abbrev S8 : Shape := ⟨1, ![8]⟩
abbrev S8x1 : Shape := ⟨2, ![8, 1]⟩
abbrev S8x16 : Shape := ⟨2, ![8, 16]⟩

abbrev nBuf : Space → Nat
  | .hbm => 43
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S256x16, .f32⟩
  | .hbm, ⟨2, _⟩ => ⟨S16x256, .f32⟩
  | .hbm, ⟨3, _⟩ => ⟨S524288, .i32⟩
  | .hbm, ⟨4, _⟩ => ⟨S_, .f32⟩
  | .hbm, ⟨5, _⟩ => ⟨S8x256, .f32⟩
  | .hbm, ⟨6, _⟩ => ⟨S524288x1, .i32⟩
  | .hbm, ⟨7, _⟩ => ⟨S8x256, .f32⟩
  | .hbm, ⟨8, _⟩ => ⟨S_, .f32⟩
  | .hbm, ⟨9, _⟩ => ⟨S524288, .f32⟩
  | .hbm, ⟨10, _⟩ => ⟨S_, .f32⟩
  | .hbm, ⟨11, _⟩ => ⟨S8, .f32⟩
  | .hbm, ⟨12, _⟩ => ⟨S524288x1, .i32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x256, .f32⟩
  | .hbm, ⟨19, _⟩ => ⟨S8x256, .f32⟩
  | .hbm, ⟨20, _⟩ => ⟨S8x16, .f32⟩
  | .hbm, ⟨21, _⟩ => ⟨S_, .f32⟩
  | .hbm, ⟨22, _⟩ => ⟨S8x16, .f32⟩
  | .hbm, ⟨23, _⟩ => ⟨S8x16, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288x256, .f32⟩
  | .hbm, ⟨42, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S_S8x16 : S_.BroadcastsInDim S8x16 (![] : Fin 0 → Fin S8x16.rank)
  scatter_S8x256_S524288x1_S524288x256_1_0_0_1_wf : ScatterDims.WF S8x256 S524288x1 S524288x256 [1] [0] [0] 1
  scatter_S8_S524288x1_S524288_n_0_0_1_wf : ScatterDims.WF S8 S524288x1 S524288 [] [0] [0] 1
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  gather_S8x256_S524288x1_S524288x256_1_0_n_n_0_1_1256_wf : GatherDims.WF S8x256 S524288x1 S524288x256 [1] [0] [] [0] [] 1 ![1, 256]

variable [Facts₀]

def scatter_S8x256_S524288x1_S524288x256_1_0_0_1 : ScatterDims S8x256 S524288x1 S524288x256 where
  updateWindowDims := [1]
  insertedWindowDims := [0]
  scatterDimsToOperandDims := [0]
  indexVectorDim := 1
  wf := scatter_S8x256_S524288x1_S524288x256_1_0_0_1_wf
def scatter_S8_S524288x1_S524288_n_0_0_1 : ScatterDims S8 S524288x1 S524288 where
  updateWindowDims := []
  insertedWindowDims := [0]
  scatterDimsToOperandDims := [0]
  indexVectorDim := 1
  wf := scatter_S8_S524288x1_S524288_n_0_0_1_wf
def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf
def gather_S8x256_S524288x1_S524288x256_1_0_n_n_0_1_1256 : GatherDims S8x256 S524288x1 S524288x256 where
  offsetDims := [1]
  collapsedSliceDims := [0]
  operandBatchingDims := []
  startIndicesBatchingDims := []
  startIndexMap := [0]
  indexVectorDim := 1
  sliceSizes := ![1, 256]
  wf := gather_S8x256_S524288x1_S524288x256_1_0_n_n_0_1_1256_wf

class Facts : Prop extends Facts₀ where

variable [Facts]
-- ==== Proof.K.Pool.lean ====
import proofs.«431042_j2559800508872_2_alg».proof.Proof.Gen.Kernel.Launch
import proofs.«431042_j2559800508872_2_alg».proof.Proof.Gen.Kernel.Skeleton
import proofs.«431042_j2559800508872_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The pooling kernel's body as triples over whole staging memrefs, one per control case over the 64 grid points: the
    first point clears both accumulators before adding, the points between only add, the last point adds and then
    writes the gate. Every store covers its whole buffer. -/

/-! ## The two conditionals over the grid -/

/-- The first conditional's test, as the body computes it from the grid coordinate. -/
private abbrev condFirst (i : grid0.Coords) : Prop :=
  (Scalar.cmpi .ne (Scalar.extui (Scalar.cmpi .eq (BitVec.ofNat 32 (i 0).val) 0#32)) 0#32) = 1#1

/-- It holds at the first point only: decided over the 64 points. -/
private theorem condFirst_iff : ∀ t : Fin cfg0.N, condFirst (grid0.coords t) ↔ t.val = 0 :=
  (by decide +kernel : ∀ t : Fin grid0.N, condFirst (grid0.coords t) ↔ t.val = 0)

/-- The second conditional's test holds at the last point only: decided over the 64 points. -/
private theorem condLast_iff : ∀ t : Fin cfg0.N, k0_cond2 (grid0.coords t) = 1#1 ↔ t.val = 63 :=
  (by decide +kernel : ∀ t : Fin grid0.N, k0_cond2 (grid0.coords t) = 1#1 ↔ t.val = 63)

/-! ## Loads and stores through the whole buffer

Every access of the body goes through the rectangle at zero offsets whose sizes are the buffer's own: a load through
it reads the contents as they are, and a store through it replaces them, so what a buffer holds at the end is the
payload of the last store into it, and a load between two stores reads the earlier store's payload. -/

/-- The two zero offsets, however spelt, are the zero function. -/
private theorem off_zero : (![0, 0] : Fin 2 → Nat) = fun _ => 0 := by
  funext a; fin_cases a <;> rfl

/-- A load through the whole-shape rectangle at zero offsets reads the buffer's contents. -/
private theorem readAt_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld]; exact View.ld_unit_zero hz inb _

/-- A store through the whole-shape rectangle at zero offsets, made last, leaves its payload: whatever the buffer
    held and whatever the earlier stores were. -/
private theorem read_store_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩)]
  exact View.canon_cons_unit_zero hz inb w L

/-! ## The three control cases -/

set_option maxHeartbeats 1000000 in
/-- First point: both accumulators cleared, then this tile's partial sums and counts added. -/
theorem pool_first (c : Dev nD) (E : Set ℕ) (t : Fin cfg0.N) (ht : t.val = 0)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (K : PUnit → sProp 𝕄) :
    iprop(owns (c : Thread nD τ) arg1 fullShare x1 ∗ owns (c : Thread nD τ) arg2 fullShare x2
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2
            ∗ owns (c : Thread nD τ) arg6 fullShare (k0_pay4 x1 x2 (k0_pay1 (F := F)))
            ∗ owns (c : Thread nD τ) arg7 fullShare (k0_pay5 x2 (k0_pay2 (F := F)))) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : condFirst (grid0.coords t) := (condFirst_iff t).2 ht
  have hc1 : ¬ (k0_cond2 (grid0.coords t) = 1#1) := fun h => by have := (condLast_iff t).1 h; omega
  simp only [cc0__pool_kernel_eq_skeleton]; unfold cc0__pool_kernel_skel
  unfold owns
  iintro ⟨⟨%f1, %hf1, H1⟩, ⟨%f2, %hf2, H2⟩, ⟨%d6, %f6, -, H6⟩, ⟨%d7, %f7, -, H7⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_store_whole _ _ off_zero, readAt_whole _ _ off_zero, readAt_whole _ _ off_zero,
      View.readCov_unit_zero _ off_zero]
  iexists _; isplitr
  swap; · iexact H7
  ipureintro
  sl_unfold_run_names
  rw [read_store_whole _ _ off_zero, readAt_whole _ _ off_zero, View.readCov_unit_zero _ off_zero]

set_option maxHeartbeats 1000000 in
/-- A point between the first and the last: this tile's partial sums and counts added to what the point before left. -/
theorem pool_mid (c : Dev nD) (E : Set ℕ) (t : Fin cfg0.N) (ht0 : t.val ≠ 0) (ht1 : t.val ≠ 63)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (s6 : Vec F S8x256 .f32) (s7 : Vec F S8x1 .f32) (K : PUnit → sProp 𝕄) :
    iprop(owns (c : Thread nD τ) arg1 fullShare x1 ∗ owns (c : Thread nD τ) arg2 fullShare x2
        ∗ owns (c : Thread nD τ) arg6 fullShare s6 ∗ owns (c : Thread nD τ) arg7 fullShare s7
        ∗ (iprop(owns (c : Thread nD τ) arg1 fullShare x1 ∗ owns (c : Thread nD τ) arg2 fullShare x2
            ∗ owns (c : Thread nD τ) arg6 fullShare (k0_pay4 x1 x2 s6)
            ∗ owns (c : Thread nD τ) arg7 fullShare (k0_pay5 x2 s7)) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : ¬ condFirst (grid0.coords t) := fun h => ht0 ((condFirst_iff t).1 h)
  have hc1 : ¬ (k0_cond2 (grid0.coords t) = 1#1) := fun h => ht1 ((condLast_iff t).1 h)
  simp only [cc0__pool_kernel_eq_skeleton]; unfold cc0__pool_kernel_skel
  unfold owns
  iintro ⟨⟨%f1, %hf1, H1⟩, ⟨%f2, %hf2, H2⟩, ⟨%f6, %hf6, H6⟩, ⟨%f7, %hf7, H7⟩, Hk⟩
  subst hf1; subst hf2; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [read_store_whole _ _ off_zero, readAt_whole _ _ off_zero, readAt_whole _ _ off_zero, readAt_whole _ _ off_zero]
  iexists _; isplitr
  swap; · iexact H7
  ipureintro
  rw [read_store_whole _ _ off_zero, readAt_whole _ _ off_zero, readAt_whole _ _ off_zero]

set_option maxHeartbeats 1000000 in
/-- Last point: the tile added as before, then the gate computed from the finished accumulators and both weight
    blocks and stored whole into the output window's buffer. -/
theorem pool_last (c : Dev nD) (E : Set ℕ) (t : Fin cfg0.N) (ht : t.val = 63)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (x3 : Vec F S256x16 .f32) (x4 : Vec F S16x256 .f32)
    (s6 : Vec F S8x256 .f32) (s7 : Vec F S8x1 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ owns (c : Thread nD τ) arg6 fullShare s6 ∗ owns (c : Thread nD τ) arg7 fullShare s7
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k0_pay6 (k0_pay4 x1 x2 s6) (k0_pay5 x2 s7) x3 x4)
            ∗ owns (c : Thread nD τ) arg6 fullShare (k0_pay4 x1 x2 s6)
            ∗ owns (c : Thread nD τ) arg7 fullShare (k0_pay5 x2 s7)) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : ¬ condFirst (grid0.coords t) := fun h => by have := (condFirst_iff t).1 h; omega
  have hc1 : k0_cond2 (grid0.coords t) = 1#1 := (condLast_iff t).2 ht
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_whole _ _ off_zero, View.readCov_unit_zero _ off_zero, View.readCov_unit_zero _ off_zero]
    repeat rw [readAt_whole _ _ off_zero]
  isplitl [H6]
  · iexists _; isplitr
    swap; · iexact H6
    ipureintro
    sl_unfold_run_names
    rw [read_store_whole _ _ off_zero]
    repeat rw [readAt_whole _ _ off_zero]
  iexists _; isplitr
  swap; · iexact H7
  ipureintro
  sl_unfold_run_names
  rw [read_store_whole _ _ off_zero]
  repeat rw [readAt_whole _ _ off_zero]

end Cert.Kernel.Hand

end
-- ==== Proof.K.Data0.lean ====
import proofs.«431042_j2559800508872_2_alg».proof.Proof.Gen.Kernel.Launch
import proofs.«431042_j2559800508872_2_alg».proof.Proof.Gen.Kernel.Skeleton
import proofs.«431042_j2559800508872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.K.Pool

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The proof data of the pooling pipeline (pipeline 0), at a parameter `V`: the buffer contents when the region is entered.
    Windows 0..3 are inputs (features tile, index tile, both weight matrices), window 4 the gate. The two scratch
    accumulators are carried from point to point; after point `n` they hold the partial sums and counts of tiles
    `0..n`. The gate window is idle at every point but the last, where it is stored whole. -/

section Regions

variable (V : (c : Dev nD) → (b : Ref sig .tc) → Buf (Elt F) ((c : Thread nD τ).loc b))

/-! ## Pooling region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at point `n`: sums, then counts. -/
def scAt0 (c : Dev nD) : (n : ℕ) → n < cfg0.N → Vec F S8x256 .f32 × Vec F S8x1 .f32
  | 0, hn => (k0_pay4 (iblk0 V c 0 ⟨0, hn⟩) (iblk0 V c 1 ⟨0, hn⟩) (k0_pay1 (F := F)), k0_pay5 (iblk0 V c 1 ⟨0, hn⟩) (k0_pay2 (F := F)))
  | n + 1, hn =>
    (k0_pay4 (iblk0 V c 0 ⟨n + 1, hn⟩) (iblk0 V c 1 ⟨n + 1, hn⟩) (scAt0 c n (Nat.lt_of_succ_lt hn)).1,
     k0_pay5 (iblk0 V c 1 ⟨n + 1, hn⟩) (scAt0 c n (Nat.lt_of_succ_lt hn)).2)

theorem lastLt0 : 63 < cfg0.N := by decide

/-- The gate the last point stores: from the finished accumulators and the two weight blocks. -/
def gate0 (c : Dev nD) : Vec F S8x256 .f32 :=
  k0_pay6 (scAt0 V c 63 lastLt0).1 (scAt0 V c 63 lastLt0).2 (iblk0 V c 2 ⟨63, lastLt0⟩) (iblk0 V c 3 ⟨63, lastLt0⟩)

abbrev scM0_0 : Memref sig .tc .vmem S8x256 .f32 := Memref.whole cc0_scratch0
abbrev scM0_1 : Memref sig .tc .vmem S8x1 .f32 := Memref.whole cc0_scratch1

/-- The scoped buffers that are neither a staging buffer of the pooling region nor one of its two accumulators (the
    multiply region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point every scoped buffer no window stages at anything
    and the generator register at some state; afterwards the two accumulators at what the point before left. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1
      ∗ owns (c : Thread nD τ) scM0_1 fullShare (scAt0 V c n hn).2 ∗ otherScoped0 c ∗ (∃ r, prngReg c r))

/-- The proof data of the pooling pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => gate0 V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = gate0 V c := by dsimp only [dat0]

/-! ## The accumulators, point by point -/

/-- At the first point the accumulators start from the cleared values. -/
theorem scAt0_zero (c : Dev nD) (t : Fin cfg0.N) (ht : t.val = 0) :
    scAt0 V c t.val t.isLt
      = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd ht (Nat.succ_ne_zero n)

/-- At a later point they add this tile to what the point before left. -/
theorem scAt0_pos (c : Dev nD) (t : Fin cfg0.N) (ht : t.val ≠ 0) :
    scAt0 V c t.val t.isLt
      = (k0_pay4 (iblk0 V c 0 t) (iblk0 V c 1 t) (scAt0 V c (t.val - 1) (Nat.lt_of_le_of_lt (Nat.sub_le _ _) t.isLt)).1,
         k0_pay5 (iblk0 V c 1 t) (scAt0 V c (t.val - 1) (Nat.lt_of_le_of_lt (Nat.sub_le _ _) t.isLt)).2) := by
  obtain ⟨n, hn⟩ := t
  cases n with
  | zero => exact absurd rfl ht
  | succ n => rfl

/-- The gate, read at the last point. -/
theorem gate0_eq (c : Dev nD) (t : Fin cfg0.N) (ht : t.val = 63) :
    gate0 V c = k0_pay6 (scAt0 V c t.val t.isLt).1 (scAt0 V c t.val t.isLt).2 (iblk0 V c 2 t) (iblk0 V c 3 t) := by
  obtain ⟨n, hn⟩ := t
  dsimp only at ht
  subst ht
  rfl

/-! ## The invariant, case by case -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (scAt0 V c n hn).1
      ∗ owns (c : Thread nD τ) scM0_1 fullShare (scAt0 V c n hn).2 ∗ otherScoped0 c ∗ (∃ r, prngReg c r)) := rfl

theorem PhiS0_pos (c : Dev nD) (n : ℕ) (h : n ≤ cfg0.N) (hz : n ≠ 0) :
    PhiS0 V c n h = iprop(owns (c : Thread nD τ) scM0_0 fullShare (scAt0 V c (n - 1) (by omega)).1
      ∗ owns (c : Thread nD τ) scM0_1 fullShare (scAt0 V c (n - 1) (by omega)).2 ∗ otherScoped0 c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The launch's invariant with the two accumulators as memrefs at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ otherScoped0 c)
          ∗ (∃ r, prngReg c r)) := by
  unfold Pipeline.ΦA otherScoped0; rw [scopedRest0_eq]; simp only [scM0_0, scM0_1, owns_whole]; try rfl

/-! ## Where the gate window is idle -/

theorem idleAt0_4 : ∀ t : Fin cfg0.N, t.val ≠ 63 → cfg0.idle 4 (grid0.coords t) = true := by decide +kernel
theorem noFlush0_4 : ∀ t : Fin cfg0.N, t.val ≠ 63 → (cfg0.win 4).flush t = false := by decide +kernel
theorem liveAt0_4 : ∀ t : Fin cfg0.N, t.val = 63 → cfg0.idle 4 (grid0.coords t) = false := by decide +kernel

/-! ## The windows' contents -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body, point by point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Each window's current staging memref at point `t`, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The four inputs' memrefs hold their blocks. At the first point the invariant hands over both
    accumulators at anything and takes them back at the first tile's sums and counts; at a later point it hands them
    over at what the point before left and takes them back with this tile added. Everywhere but at the last point the
    gate window's buffer goes back as found; at the last point it is stored whole with the gate of the finished
    accumulators. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  by_cases h0 : t.val = 0
  · have h63 : t.val ≠ 63 := by omega
    rw [Dat.leavesExact_idle (dat0 V c) 4 t (idleAt0_4 t h63) (noFlush0_4 t h63)]
    rw [scAt0_zero V c t h0]
    rw [PhiS0_castSucc V c t, PhiS0_zero V c _ _ h0, PhiA0_eq]
    iintro ⟨⟨⟨HS0, HS1, HO⟩, Hg⟩, Ho, ⟨%d0, H0⟩, ⟨%d1, H1⟩, ⟨%d2, H2⟩, ⟨%d3, H3⟩, H4⟩
    iapply (pool_first c Set.univ t h0 (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _)
      (iblk0 V c 0 t) (iblk0 V c 1 t) _)
    isplitl [H0]; · iexact H0
    isplitl [H1]; · iexact H1
    isplitl [HS0]; · iexact HS0
    isplitl [HS1]; · iexact HS1
    iintro ⟨H0, H1, HS0, HS1⟩
    isplitl [HS0 HS1 HO Hg]
    · isplitl [HS0]; · iexact HS0
      isplitl [HS1]; · iexact HS1
      isplitl [HO]; · iexact HO
      iexact Hg
    isplitl [Ho]; · iexact Ho
    isplitl [H0]; · iexact H0
    isplitl [H1]; · iexact H1
    isplitl [H2]; · iexact H2
    isplitl [H3]; · iexact H3
    iexact H4
  · by_cases h63 : t.val = 63
    · have h0' : t.val ≠ 0 := h0
      rw [show (dat0 V c).leavesExact 4 t = owns (c : Thread nD τ) (ms0_4 t) fullShare ((dat0 V c).after 4 t) from by
        unfold Dat.leavesExact; rw [liveAt0_4 t h63], after0_4, gate0_eq V c t h63]
      rw [scAt0_pos V c t h0]
      rw [PhiS0_castSucc V c t, PhiS0_pos V c _ _ h0]
      iintro ⟨⟨HS0, HS1, HO, Hg⟩, Ho, ⟨%d0, H0⟩, ⟨%d1, H1⟩, ⟨%d2, H2⟩, ⟨%d3, H3⟩, ⟨%d4, H4⟩⟩
      iapply (pool_last c Set.univ t h63 (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _)
        (iblk0 V c 0 t) (iblk0 V c 1 t) (iblk0 V c 2 t) (iblk0 V c 3 t)
        (scAt0 V c (t.val - 1) (Nat.lt_of_le_of_lt (Nat.sub_le _ _) t.isLt)).1
        (scAt0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HO Hg]
      · isplitl [HS0]; · iexact HS0
        isplitl [HS1]; · iexact HS1
        isplitl [HO]; · iexact HO
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h63) (noFlush0_4 t h63)]
      rw [scAt0_pos V c t h0]
      rw [PhiS0_castSucc V c t, PhiS0_pos V c _ _ h0]
      iintro ⟨⟨HS0, HS1, HO, Hg⟩, Ho, ⟨%d0, H0⟩, ⟨%d1, H1⟩, ⟨%d2, H2⟩, ⟨%d3, H3⟩, H4⟩
      iapply (pool_mid c Set.univ t h0 h63 (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _)
        (iblk0 V c 0 t) (iblk0 V c 1 t)
        (scAt0 V c (t.val - 1) (Nat.lt_of_le_of_lt (Nat.sub_le _ _) t.isLt)).1
        (scAt0 V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 HO Hg]
      · isplitl [HS0]; · iexact HS0
        isplitl [HS1]; · iexact HS1
        isplitl [HO]; · iexact HO
        iexact Hg
      isplitl [Ho]; · iexact Ho
      isplitl [H0]; · iexact H0
      isplitl [H1]; · iexact H1
      isplitl [H2]; · iexact H2
      isplitl [H3]; · iexact H3
      iexact H4

/-- The body obligation of the pooling pipeline, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest back, the accumulators' contents forgotten. -/
theorem hout0 (c : Dev nD) : (dat0 V c).Φ (Fin.last cfg0.N) ⊢ Pipeline.ΦA spec0 c := by
  rw [show (dat0 V c).Φ (Fin.last cfg0.N)
      = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS0, HS1, HO, Hg⟩
  isplitl [HS0 HS1 HO]
  · isplitl [HS0]; · iexists _; iexact HS0
    isplitl [HS1]; · iexists _; iexact HS1
    iexact HO
  iexact Hg

/-- The gate window's block index is (0, 0) at every point, and its block has the array's own sizes: the offsets of
    its block in the array are zero on both axes. -/
theorem gateOff0 (t : Fin cfg0.N) : (fun a => win0_4.index t a * main_v1.ty.shape.size a) = fun _ => 0 :=
  funext fun a => by fin_cases a <;> rfl

/-- A write-back of the gate window writes the gate: its block, read off an array holding the gate, is the gate. -/
theorem flushed0_4 (c : Dev nD) (t : Fin cfg0.N) (hf : (cfg0.win 4).flush t = true) :
    (dat0 V c).flushed 4 t = ((cfg0.win 4).blk t).view.read (Elt F) (gate0 V c) := by
  show (cfg0.win 4).cut (grid0.coords t) ((dat0 V c).after 4 t) = _
  rw [after0_4]
  exact (Memref.read_access_unit_zero (Elt F) main_v1 (gateOff0 t)
    (fun a => by rw [congrFun (gateOff0 t) a]; simp) (gate0 V c)).symm

/-- The gate's array after the region: the one write-back, at the last point, covers it. -/
theorem gate_final0 (c : Dev nD) : (dat0 V c).arrAt 4 cfg0.N = gate0 V c :=
  (dat0 V c).arrAt_eq_of_cover 4 (gate0 V c) (flushed0_4 V c) fun i =>
    ⟨⟨63, lastLt0⟩, (flush0_4 _).mpr rfl, by
      show i ∈ ((View.whole main_v1).slice (win0_4.rect ⟨63, lastLt0⟩)).set
      rw [View.set_slice_whole, Rect.mem_set_unit]
      intro a
      have h0 : (i 0 : Nat) < 8 := (i 0).isLt
      have h1 : (i 1 : Nat) < 256 := (i 1).isLt
      have hz := congrFun (gateOff0 ⟨63, lastLt0⟩) a
      match a with
      | ⟨0, _⟩ =>
        show win0_4.index ⟨63, lastLt0⟩ 0 * win0_4.size 0 ≤ (i 0 : Nat)
          ∧ (i 0 : Nat) < win0_4.index ⟨63, lastLt0⟩ 0 * win0_4.size 0 + win0_4.xsize (grid0.coords ⟨63, lastLt0⟩) 0
        rw [show win0_4.index ⟨63, lastLt0⟩ 0 * win0_4.size 0 = 0 from hz,
          show win0_4.xsize (grid0.coords ⟨63, lastLt0⟩) 0 = 8 from rfl]
        omega
      | ⟨1, _⟩ =>
        show win0_4.index ⟨63, lastLt0⟩ 1 * win0_4.size 1 ≤ (i 1 : Nat)
          ∧ (i 1 : Nat) < win0_4.index ⟨63, lastLt0⟩ 1 * win0_4.size 1 + win0_4.xsize (grid0.coords ⟨63, lastLt0⟩) 1
        rw [show win0_4.index ⟨63, lastLt0⟩ 1 * win0_4.size 1 = 0 from hz,
          show win0_4.xsize (grid0.coords ⟨63, lastLt0⟩) 1 = 256 from rfl]
        omega⟩

end Regions

end Cert.Kernel.Hand

end
-- ==== Proof.K.Mul.lean ====
import proofs.«431042_j2559800508872_2_alg».proof.Proof.Gen.Kernel.Launch
import proofs.«431042_j2559800508872_2_alg».proof.Proof.Gen.Kernel.Skeleton
import proofs.«431042_j2559800508872_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The literal zero offsets of a rank-two rectangle are the zero function. -/
private theorem zeros2 : (![0, 0] : Fin 2 → Nat) = fun _ => 0 := funext fun a => by fin_cases a <;> rfl

/-! The multiply kernel's body as a triple over whole staging memrefs: one control case, one store covering the output buffer. -/

/-- The multiply kernel at any point: the output buffer ends at the tile's features times each point's gate row. -/
theorem mul_body (c : Dev nD) (E : Set ℕ) (i : grid1.Coords)
    (arg1 : Memref sig .tc .vmem S8192x256 .f32) (harg1 : arg1.IsWhole) (arg2 : Memref sig .tc .vmem S8192x1 .i32) (harg2 : arg2.IsWhole)
    (arg3 : Memref sig .tc .vmem S8x256 .f32) (harg3 : arg3.IsWhole) (arg4 : Memref sig .tc .vmem S8192x256 .f32) (harg4 : arg4.IsWhole)
    (x1 : Vec F S8192x256 .f32) (x2 : Vec F S8192x1 .i32) (x3 : Vec F S8x256 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3
            ∗ owns (c : Thread nD τ) arg4 fullShare (k1_pay1 x1 x2 x3)) -∗ K ⟨⟩))
      ⊢ wp frame (wpE (defs₀ (F := F)) Variants.none c none) E
          (cc1__mul_kernel i arg1 harg1 arg2 harg2 arg3 harg3 arg4 harg4) K := by
  simp only [cc1__mul_kernel_eq_skeleton]; unfold cc1__mul_kernel_skel
  unfold owns
  iintro ⟨⟨%f1, %hf1, H1⟩, ⟨%f2, %hf2, H2⟩, ⟨%f3, %hf3, H3⟩, ⟨%d, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so what is read back is its payload; each whole-rectangle load is the contents
  refine (View.read_writes_eq_canon _ _ _ ?_).trans ?_
  · intro y
    exact ⟨_, List.mem_singleton_self _,
      View.mem_set_unit_zero (S := S8192x256) zeros2 inb_S8192x256_S8192x256_0_0 y⟩
  · rw [View.canon_unit_zero (S := S8192x256) zeros2 inb_S8192x256_S8192x256_0_0]
    simp only [Rect.toLoadRect, View.readAt_eq_ld]
    rw [View.ld_unit_zero (S := S8192x256) zeros2 inb_S8192x256_S8192x256_0_0,
      View.ld_unit_zero (S := S8192x1) zeros2 inb_S8192x1_S8192x1_0_0,
      View.ld_unit_zero (S := S8x256) zeros2 inb_S8x256_S8x256_0_0]

end Cert.Kernel.Hand

end
-- ==== Proof.K.Data1.lean ====
import proofs.«431042_j2559800508872_2_alg».proof.Proof.Gen.Kernel.Launch
import proofs.«431042_j2559800508872_2_alg».proof.Proof.Gen.Kernel.Skeleton
import proofs.«431042_j2559800508872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.K.Mul

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The proof data of the multiply pipeline (pipeline 1), at a parameter `V`: the buffer contents when the region is entered. -/

section Regions

variable (V : (c : Dev nD) → (b : Ref sig .tc) → Buf (Elt F) ((c : Thread nD τ).loc b))

/-! ## Multiply region (pipeline 1): windows 0..2 inputs (features tile, index tile, the gate), window 3 the result -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the multiply pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = k1_pay1 (iblk1 V c 0 t) (iblk1 V c 1 t) (iblk1 V c 2 t) := by dsimp only [dat1]

/-! ## What the body finds in each input window's buffer -/

private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]

/-- The features tile's buffer holds its block at every point: the body leaves the block in place, and where no
    fetch happens the block index has not moved. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The index tile's buffer holds its block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The gate's buffer holds its block at every point, although it is fetched at the first point only: its block
    index is constant along the grid. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation at one point -/

/-- What the body is handed at point `t`: the invariant, what the core owes, and the four current buffers. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, the inputs in place, the output at the product. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the multiply triple applies with the
    output buffer at whatever it held; the invariant and the debt are not read and pass through. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (mul_body c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the multiply pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
import proofs.«431042_j2559800508872_2_alg».proof.Proof.Gen.Kernel.Launch
import proofs.«431042_j2559800508872_2_alg».proof.Proof.Gen.Kernel.Skeleton
import proofs.«431042_j2559800508872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.K.Data0
import proofs.«431042_j2559800508872_2_alg».proof.Proof.K.Data1
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The run of @main: one host operation (the index vector reshaped to a column), the pooling region, the multiply
    region. The buffer contents at each boundary are a fold from the launch memory; the run ends with every unscoped
    buffer at the last boundary's contents, from which the frame (the arguments as launched) and the result array are
    read. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the pooling region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the multiply region's exit. -/
def W3 (c : Dev nD) : Valuation τ sig (Elt F) :=
  Pipeline.withArrays spec1 c (W2 m ρ c) fun w => (dat1 (V2 m ρ) c).arrAt w cfg1.N

/-! ## Reading the fold

A region's exit contents agree with its pipeline's final arrays at the windows' arrays and with the entry contents
everywhere else; the host operation writes `main_v0` only. -/

private theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

private theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

private theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

private theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- An input window of the pooling region leaves its array as entered. -/
private theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- An input window of the multiply region leaves its array as entered. -/
private theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- The reshape writes the column `main_v0` and nothing else. -/
private theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

private theorem hF0 (c : Dev nD) (w : Fin cfg0.W) : (dat0 (V1 m ρ) c).arrAt w cfg0.N = V2 m ρ c (Pipeline.arrRef spec0 w) :=
  (W2_arr m ρ c w).symm
private theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The last boundary's contents read at the TensorCore's references. -/
private abbrev V3 : (c : Dev nD) → (b : Ref sig .tc) → Buf (Elt F) ((c : Thread nD τ).loc b) := fun c b => W3 m ρ c b
private theorem hF1 (c : Dev nD) (w : Fin cfg1.W) : (dat1 (V2 m ρ) c).arrAt w cfg1.N = V3 m ρ c (Pipeline.arrRef spec1 w) :=
  (W3_arr m ρ c w).symm
private theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- No pipeline has a prefetched table. -/
private abbrev adm : (p : Fin 2) → (pcfgs (F := F) p).Adm := fun p => (cfgs p).toPCfg_adm
/-- Each pipeline's proof data at its region's entry contents: the pooling pipeline at the contents after the
    reshape, the multiply pipeline at the pooling region's exit contents. -/
private def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
private abbrev 𝒱₀ : Variants := Variants.none
/-- No core owes another anything. -/
private abbrev L : GSem nD τ sig → Finset Unit := fun _ => ∅
private abbrev lv : GSem nD τ sig → Unit → ℕ := fun _ _ => 0
/-- Beside the buffers through every segment: the generator register at some state, and nothing owed. -/
private abbrev R (c : Dev nD) : sProp 𝕄 := iprop((∃ r, prngReg c r) ∗ ∃ W, owes (c : Thread nD τ) (0 : CellTallies nD τ sig Unit) W)
/-- The thread state at a boundary: every unscoped buffer at the boundary's contents, beside `R`. -/
private abbrev T (W : Dev nD → Valuation τ sig (Elt F)) (c : Dev nD) : sProp 𝕄 :=
  iprop(StableHlo.held (c : Thread nD τ) (Pipeline.ucRefs τ sig) (W c) ∗ R c)

private theorem hostOps0_fresh : (hostOps0 : List (HloOp τ sig (Elt F))).Forall fun op => op.fresh = ∅ := by
  simp only [List.Forall]; repeat' constructor

/-- The host stretch as a segment, from the launch contents. -/
private abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- The last thread state without the `owes`. -/
private abbrev Tₙ (c : Dev nD) : sProp 𝕄 :=
  iprop(StableHlo.held (c : Thread nD τ) (Pipeline.ucRefs τ sig) (W3 m ρ c) ∗ ∃ r, prngReg c r)

/-! ## The regions as segments -/

set_option backward.isDefEq.respectTransparency.types false in
/-- The pooling region: entered with every unscoped buffer at `W1`, left at `W2`. Its arrays are split out of the
    unscoped buffers at entry and put back at exit; the generator register and the scoped rest pass through the
    pipeline's invariant, whose first and last points are `hin0` and `hout0`. -/
private def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := T (W1 m ρ) c
  post c := T (W2 m ρ) c
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The multiply region: entered at `W2` (what the pooling region left), left at `W3`. Its invariant is the scoped
    rest and the generator register at every point. -/
private def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := T (W2 m ρ) c
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments: the host operation, then the two regions back to back. -/
private abbrev segs : List (Pipeline.Seg (pcfgs (F := F)) adm (pdats m ρ) () defs₀ 𝒱₀ L lv) :=
  [ .host (hseg0 m ρ), .region (reg0 m ρ), .region (reg1 m ρ) ]

private theorem main_run (c : Dev nD) : main (F := F) c = Pipeline.Seg.run (segs m ρ) :=
  main_segs adm (pdats m ρ) () 𝒱₀ L lv (hseg0 m ρ) (reg0 m ρ) (reg1 m ρ) rfl c

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- An unscoped TensorCore reference is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The arguments end as launched. -/
theorem W3_main_arg0 (c : Dev nD) : W3 m ρ c (Proc.devRef .tc main_arg0) = m ((c : Thread nD τ).loc main_arg0) :=
  (W3_in m ρ c 0 rfl).trans <| (W2_in m ρ c 0 rfl).trans <| (W1_of_ne m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_in m ρ c 2 rfl).trans <| (W1_of_ne m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_in m ρ c 3 rfl).trans <| (W1_of_ne m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of_ne m ρ c main_arg3 (by decide)).trans rfl

/-- The result array ends at what the multiply pipeline's write-backs leave. -/
theorem W3_main_v2 (c : Dev nD) : W3 m ρ c (Proc.devRef .tc main_v2) = (dat1 (V2 m ρ) c).arrAt 3 cfg1.N :=
  W3_arr m ρ c 3

/-! What the multiply region finds in its input arrays. -/
theorem V2_main_arg0 (c : Dev nD) : V2 m ρ c main_arg0 = m ((c : Thread nD τ).loc main_arg0) :=
  (W2_in m ρ c 0 rfl).trans <| (W1_of_ne m ρ c main_arg0 (by decide)).trans rfl
theorem V2_main_v0 (c : Dev nD) : V2 m ρ c main_v0 = V1 m ρ c main_v0 :=
  W2_in m ρ c 1 rfl
/-- The gate as the pooling region left it. -/
theorem V2_main_v1 (c : Dev nD) : V2 m ρ c main_v1 = gate0 (V1 m ρ) c :=
  (W2_arr m ρ c 4).trans (gate_final0 (V1 m ρ) c)

/-! What the pooling region finds in its input arrays. -/
theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_of_ne m ρ c main_arg1 (by decide)).trans rfl
theorem V1_main_arg2 (c : Dev nD) : V1 m ρ c main_arg2 = m ((c : Thread nD τ).loc main_arg2) :=
  (W1_of_ne m ρ c main_arg2 (by decide)).trans rfl

/-- The frame claim at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.Pool.lean ====
import proofs.«431042_j2559800508872_2_alg».proof.Proof.Gen.KernelIdeal.Launch
import proofs.«431042_j2559800508872_2_alg».proof.Proof.Gen.KernelIdeal.Skeleton
import proofs.«431042_j2559800508872_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The pooling kernel's body as triples over whole staging memrefs, one per control case over the 64 grid points: the
    first point clears both accumulators before adding, the points between only add, the last point adds and then
    writes the gate. Every store covers its whole buffer. -/

/-! ## The two conditionals over the grid -/

/-- The first conditional's test, as the body computes it from the grid coordinate. -/
private abbrev condFirst (i : grid0.Coords) : Prop :=
  (Scalar.cmpi .ne (Scalar.extui (Scalar.cmpi .eq (BitVec.ofNat 32 (i 0).val) 0#32)) 0#32) = 1#1

/-- It holds at the first point only: decided over the 64 points. -/
private theorem condFirst_iff : ∀ t : Fin cfg0.N, condFirst (grid0.coords t) ↔ t.val = 0 :=
  (by decide +kernel : ∀ t : Fin grid0.N, condFirst (grid0.coords t) ↔ t.val = 0)

/-- The second conditional's test holds at the last point only: decided over the 64 points. -/
private theorem condLast_iff : ∀ t : Fin cfg0.N, k0_cond2 (grid0.coords t) = 1#1 ↔ t.val = 63 :=
  (by decide +kernel : ∀ t : Fin grid0.N, k0_cond2 (grid0.coords t) = 1#1 ↔ t.val = 63)

/-! ## Loads and stores through the whole buffer

Every access of the body goes through the rectangle at zero offsets whose sizes are the buffer's own: a load through
it reads the contents as they are, and a store through it replaces them, so what a buffer holds at the end is the
payload of the last store into it, and a load between two stores reads the earlier store's payload. -/

/-- The two zero offsets, however spelt, are the zero function. -/
private theorem off_zero : (![0, 0] : Fin 2 → Nat) = fun _ => 0 := by
  funext a; fin_cases a <;> rfl

/-- A load through the whole-shape rectangle at zero offsets reads the buffer's contents. -/
private theorem readAt_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld]; exact View.ld_unit_zero hz inb _

/-- A store through the whole-shape rectangle at zero offsets, made last, leaves its payload: whatever the buffer
    held and whatever the earlier stores were. -/
private theorem read_store_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩)]
  exact View.canon_cons_unit_zero hz inb w L

/-! ## The three control cases -/

set_option maxHeartbeats 1000000 in
/-- First point: both accumulators cleared, then this tile's partial sums and counts added. -/
theorem pool_first (c : Dev nD) (E : Set ℕ) (t : Fin cfg0.N) (ht : t.val = 0)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (K : PUnit → sProp 𝕄) :
    iprop(owns (c : Thread nD τ) arg1 fullShare x1 ∗ owns (c : Thread nD τ) arg2 fullShare x2
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2
            ∗ owns (c : Thread nD τ) arg6 fullShare (k0_pay4 x1 x2 (k0_pay1 (F := F)))
            ∗ owns (c : Thread nD τ) arg7 fullShare (k0_pay5 x2 (k0_pay2 (F := F)))) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : condFirst (grid0.coords t) := (condFirst_iff t).2 ht
  have hc1 : ¬ (k0_cond2 (grid0.coords t) = 1#1) := fun h => by have := (condLast_iff t).1 h; omega
  simp only [cc0__pool_kernel_eq_skeleton]; unfold cc0__pool_kernel_skel
  unfold owns
  iintro ⟨⟨%f1, %hf1, H1⟩, ⟨%f2, %hf2, H2⟩, ⟨%d6, %f6, -, H6⟩, ⟨%d7, %f7, -, H7⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_store_whole _ _ off_zero, readAt_whole _ _ off_zero, readAt_whole _ _ off_zero,
      View.readCov_unit_zero _ off_zero]
  iexists _; isplitr
  swap; · iexact H7
  ipureintro
  sl_unfold_run_names
  rw [read_store_whole _ _ off_zero, readAt_whole _ _ off_zero, View.readCov_unit_zero _ off_zero]

set_option maxHeartbeats 1000000 in
/-- A point between the first and the last: this tile's partial sums and counts added to what the point before left. -/
theorem pool_mid (c : Dev nD) (E : Set ℕ) (t : Fin cfg0.N) (ht0 : t.val ≠ 0) (ht1 : t.val ≠ 63)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (s6 : Vec F S8x256 .f32) (s7 : Vec F S8x1 .f32) (K : PUnit → sProp 𝕄) :
    iprop(owns (c : Thread nD τ) arg1 fullShare x1 ∗ owns (c : Thread nD τ) arg2 fullShare x2
        ∗ owns (c : Thread nD τ) arg6 fullShare s6 ∗ owns (c : Thread nD τ) arg7 fullShare s7
        ∗ (iprop(owns (c : Thread nD τ) arg1 fullShare x1 ∗ owns (c : Thread nD τ) arg2 fullShare x2
            ∗ owns (c : Thread nD τ) arg6 fullShare (k0_pay4 x1 x2 s6)
            ∗ owns (c : Thread nD τ) arg7 fullShare (k0_pay5 x2 s7)) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : ¬ condFirst (grid0.coords t) := fun h => ht0 ((condFirst_iff t).1 h)
  have hc1 : ¬ (k0_cond2 (grid0.coords t) = 1#1) := fun h => ht1 ((condLast_iff t).1 h)
  simp only [cc0__pool_kernel_eq_skeleton]; unfold cc0__pool_kernel_skel
  unfold owns
  iintro ⟨⟨%f1, %hf1, H1⟩, ⟨%f2, %hf2, H2⟩, ⟨%f6, %hf6, H6⟩, ⟨%f7, %hf7, H7⟩, Hk⟩
  subst hf1; subst hf2; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [read_store_whole _ _ off_zero, readAt_whole _ _ off_zero, readAt_whole _ _ off_zero, readAt_whole _ _ off_zero]
  iexists _; isplitr
  swap; · iexact H7
  ipureintro
  rw [read_store_whole _ _ off_zero, readAt_whole _ _ off_zero, readAt_whole _ _ off_zero]

set_option maxHeartbeats 1000000 in
/-- Last point: the tile added as before, then the gate computed from the finished accumulators and both weight
    blocks and stored whole into the output window's buffer. -/
theorem pool_last (c : Dev nD) (E : Set ℕ) (t : Fin cfg0.N) (ht : t.val = 63)
    (arg1 : Memref sig .tc .vmem S8192x256 .f32) (harg1 : arg1.IsWhole) (arg2 : Memref sig .tc .vmem S8192x1 .i32) (harg2 : arg2.IsWhole)
    (arg3 : Memref sig .tc .vmem S256x16 .f32) (harg3 : arg3.IsWhole) (arg4 : Memref sig .tc .vmem S16x256 .f32) (harg4 : arg4.IsWhole)
    (arg5 : Memref sig .tc .vmem S8x256 .f32) (harg5 : arg5.IsWhole) (arg6 : Memref sig .tc .vmem S8x256 .f32) (harg6 : arg6.IsWhole)
    (arg7 : Memref sig .tc .vmem S8x1 .f32) (harg7 : arg7.IsWhole)
    (x1 : Vec F S8192x256 .f32) (x2 : Vec F S8192x1 .i32) (x3 : Vec F S256x16 .f32) (x4 : Vec F S16x256 .f32)
    (s6 : Vec F S8x256 .f32) (s7 : Vec F S8x1 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ owns (c : Thread nD τ) arg6 fullShare s6 ∗ owns (c : Thread nD τ) arg7 fullShare s7
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k0_pay6 (k0_pay4 x1 x2 s6) (k0_pay5 x2 s7) x3 x4)
            ∗ owns (c : Thread nD τ) arg6 fullShare (k0_pay4 x1 x2 s6)
            ∗ owns (c : Thread nD τ) arg7 fullShare (k0_pay5 x2 s7)) -∗ K ⟨⟩))
      ⊢ wp frame (wpE (defs₀ (F := F)) Variants.none c none) E
          (cc0__pool_kernel (grid0.coords t) arg1 harg1 arg2 harg2 arg3 harg3 arg4 harg4 arg5 harg5 arg6 harg6 arg7 harg7) K := by
  have hc0 : ¬ condFirst (grid0.coords t) := fun h => by have := (condFirst_iff t).1 h; omega
  have hc1 : k0_cond2 (grid0.coords t) = 1#1 := (condLast_iff t).2 ht
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_whole _ _ off_zero, View.readCov_unit_zero _ off_zero, View.readCov_unit_zero _ off_zero]
    repeat rw [readAt_whole _ _ off_zero]
  isplitl [H6]
  · iexists _; isplitr
    swap; · iexact H6
    ipureintro
    sl_unfold_run_names
    rw [read_store_whole _ _ off_zero]
    repeat rw [readAt_whole _ _ off_zero]
  iexists _; isplitr
  swap; · iexact H7
  ipureintro
  sl_unfold_run_names
  rw [read_store_whole _ _ off_zero]
  repeat rw [readAt_whole _ _ off_zero]

end Cert.KernelIdeal.Hand

end
-- ==== Proof.KI.Data0.lean ====
import proofs.«431042_j2559800508872_2_alg».proof.Proof.Gen.KernelIdeal.Launch
import proofs.«431042_j2559800508872_2_alg».proof.Proof.Gen.KernelIdeal.Skeleton
import proofs.«431042_j2559800508872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.KI.Pool

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The proof data of the pooling pipeline (pipeline 0), at a parameter `V`: the buffer contents when the region is entered.
    Windows 0..3 are inputs (features tile, index tile, both weight matrices), window 4 the gate. The two scratch
    accumulators are carried from point to point; after point `n` they hold the partial sums and counts of tiles
    `0..n`. The gate window is idle at every point but the last, where it is stored whole. -/

section Regions

variable (V : (c : Dev nD) → (b : Ref sig .tc) → Buf (Elt F) ((c : Thread nD τ).loc b))

/-! ## Pooling region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at point `n`: sums, then counts. -/
def scAt0 (c : Dev nD) : (n : ℕ) → n < cfg0.N → Vec F S8x256 .f32 × Vec F S8x1 .f32
  | 0, hn => (k0_pay4 (iblk0 V c 0 ⟨0, hn⟩) (iblk0 V c 1 ⟨0, hn⟩) (k0_pay1 (F := F)), k0_pay5 (iblk0 V c 1 ⟨0, hn⟩) (k0_pay2 (F := F)))
  | n + 1, hn =>
    (k0_pay4 (iblk0 V c 0 ⟨n + 1, hn⟩) (iblk0 V c 1 ⟨n + 1, hn⟩) (scAt0 c n (Nat.lt_of_succ_lt hn)).1,
     k0_pay5 (iblk0 V c 1 ⟨n + 1, hn⟩) (scAt0 c n (Nat.lt_of_succ_lt hn)).2)

theorem lastLt0 : 63 < cfg0.N := by decide

/-- The gate the last point stores: from the finished accumulators and the two weight blocks. -/
def gate0 (c : Dev nD) : Vec F S8x256 .f32 :=
  k0_pay6 (scAt0 V c 63 lastLt0).1 (scAt0 V c 63 lastLt0).2 (iblk0 V c 2 ⟨63, lastLt0⟩) (iblk0 V c 3 ⟨63, lastLt0⟩)

abbrev scM0_0 : Memref sig .tc .vmem S8x256 .f32 := Memref.whole cc0_scratch0
abbrev scM0_1 : Memref sig .tc .vmem S8x1 .f32 := Memref.whole cc0_scratch1

/-- The scoped buffers that are neither a staging buffer of the pooling region nor one of its two accumulators (the
    multiply region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point every scoped buffer no window stages at anything
    and the generator register at some state; afterwards the two accumulators at what the point before left. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1
      ∗ owns (c : Thread nD τ) scM0_1 fullShare (scAt0 V c n hn).2 ∗ otherScoped0 c ∗ (∃ r, prngReg c r))

/-- The proof data of the pooling pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => gate0 V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = gate0 V c := by dsimp only [dat0]

/-! ## The accumulators, point by point -/

/-- At the first point the accumulators start from the cleared values. -/
theorem scAt0_zero (c : Dev nD) (t : Fin cfg0.N) (ht : t.val = 0) :
    scAt0 V c t.val t.isLt
      = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd ht (Nat.succ_ne_zero n)

/-- At a later point they add this tile to what the point before left. -/
theorem scAt0_pos (c : Dev nD) (t : Fin cfg0.N) (ht : t.val ≠ 0) :
    scAt0 V c t.val t.isLt
      = (k0_pay4 (iblk0 V c 0 t) (iblk0 V c 1 t) (scAt0 V c (t.val - 1) (Nat.lt_of_le_of_lt (Nat.sub_le _ _) t.isLt)).1,
         k0_pay5 (iblk0 V c 1 t) (scAt0 V c (t.val - 1) (Nat.lt_of_le_of_lt (Nat.sub_le _ _) t.isLt)).2) := by
  obtain ⟨n, hn⟩ := t
  cases n with
  | zero => exact absurd rfl ht
  | succ n => rfl

/-- The gate, read at the last point. -/
theorem gate0_eq (c : Dev nD) (t : Fin cfg0.N) (ht : t.val = 63) :
    gate0 V c = k0_pay6 (scAt0 V c t.val t.isLt).1 (scAt0 V c t.val t.isLt).2 (iblk0 V c 2 t) (iblk0 V c 3 t) := by
  obtain ⟨n, hn⟩ := t
  dsimp only at ht
  subst ht
  rfl

/-! ## The invariant, case by case -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (scAt0 V c n hn).1
      ∗ owns (c : Thread nD τ) scM0_1 fullShare (scAt0 V c n hn).2 ∗ otherScoped0 c ∗ (∃ r, prngReg c r)) := rfl

theorem PhiS0_pos (c : Dev nD) (n : ℕ) (h : n ≤ cfg0.N) (hz : n ≠ 0) :
    PhiS0 V c n h = iprop(owns (c : Thread nD τ) scM0_0 fullShare (scAt0 V c (n - 1) (by omega)).1
      ∗ owns (c : Thread nD τ) scM0_1 fullShare (scAt0 V c (n - 1) (by omega)).2 ∗ otherScoped0 c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The launch's invariant with the two accumulators as memrefs at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ otherScoped0 c)
          ∗ (∃ r, prngReg c r)) := by
  unfold Pipeline.ΦA otherScoped0; rw [scopedRest0_eq]; simp only [scM0_0, scM0_1, owns_whole]; try rfl

/-! ## Where the gate window is idle -/

theorem idleAt0_4 : ∀ t : Fin cfg0.N, t.val ≠ 63 → cfg0.idle 4 (grid0.coords t) = true := by decide +kernel
theorem noFlush0_4 : ∀ t : Fin cfg0.N, t.val ≠ 63 → (cfg0.win 4).flush t = false := by decide +kernel
theorem liveAt0_4 : ∀ t : Fin cfg0.N, t.val = 63 → cfg0.idle 4 (grid0.coords t) = false := by decide +kernel

/-! ## The windows' contents -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body, point by point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Each window's current staging memref at point `t`, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The four inputs' memrefs hold their blocks. At the first point the invariant hands over both
    accumulators at anything and takes them back at the first tile's sums and counts; at a later point it hands them
    over at what the point before left and takes them back with this tile added. Everywhere but at the last point the
    gate window's buffer goes back as found; at the last point it is stored whole with the gate of the finished
    accumulators. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  by_cases h0 : t.val = 0
  · have h63 : t.val ≠ 63 := by omega
    rw [Dat.leavesExact_idle (dat0 V c) 4 t (idleAt0_4 t h63) (noFlush0_4 t h63)]
    rw [scAt0_zero V c t h0]
    rw [PhiS0_castSucc V c t, PhiS0_zero V c _ _ h0, PhiA0_eq]
    iintro ⟨⟨⟨HS0, HS1, HO⟩, Hg⟩, Ho, ⟨%d0, H0⟩, ⟨%d1, H1⟩, ⟨%d2, H2⟩, ⟨%d3, H3⟩, H4⟩
    iapply (pool_first c Set.univ t h0 (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _)
      (iblk0 V c 0 t) (iblk0 V c 1 t) _)
    isplitl [H0]; · iexact H0
    isplitl [H1]; · iexact H1
    isplitl [HS0]; · iexact HS0
    isplitl [HS1]; · iexact HS1
    iintro ⟨H0, H1, HS0, HS1⟩
    isplitl [HS0 HS1 HO Hg]
    · isplitl [HS0]; · iexact HS0
      isplitl [HS1]; · iexact HS1
      isplitl [HO]; · iexact HO
      iexact Hg
    isplitl [Ho]; · iexact Ho
    isplitl [H0]; · iexact H0
    isplitl [H1]; · iexact H1
    isplitl [H2]; · iexact H2
    isplitl [H3]; · iexact H3
    iexact H4
  · by_cases h63 : t.val = 63
    · have h0' : t.val ≠ 0 := h0
      rw [show (dat0 V c).leavesExact 4 t = owns (c : Thread nD τ) (ms0_4 t) fullShare ((dat0 V c).after 4 t) from by
        unfold Dat.leavesExact; rw [liveAt0_4 t h63], after0_4, gate0_eq V c t h63]
      rw [scAt0_pos V c t h0]
      rw [PhiS0_castSucc V c t, PhiS0_pos V c _ _ h0]
      iintro ⟨⟨HS0, HS1, HO, Hg⟩, Ho, ⟨%d0, H0⟩, ⟨%d1, H1⟩, ⟨%d2, H2⟩, ⟨%d3, H3⟩, ⟨%d4, H4⟩⟩
      iapply (pool_last c Set.univ t h63 (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _)
        (iblk0 V c 0 t) (iblk0 V c 1 t) (iblk0 V c 2 t) (iblk0 V c 3 t)
        (scAt0 V c (t.val - 1) (Nat.lt_of_le_of_lt (Nat.sub_le _ _) t.isLt)).1
        (scAt0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HO Hg]
      · isplitl [HS0]; · iexact HS0
        isplitl [HS1]; · iexact HS1
        isplitl [HO]; · iexact HO
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h63) (noFlush0_4 t h63)]
      rw [scAt0_pos V c t h0]
      rw [PhiS0_castSucc V c t, PhiS0_pos V c _ _ h0]
      iintro ⟨⟨HS0, HS1, HO, Hg⟩, Ho, ⟨%d0, H0⟩, ⟨%d1, H1⟩, ⟨%d2, H2⟩, ⟨%d3, H3⟩, H4⟩
      iapply (pool_mid c Set.univ t h0 h63 (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _)
        (iblk0 V c 0 t) (iblk0 V c 1 t)
        (scAt0 V c (t.val - 1) (Nat.lt_of_le_of_lt (Nat.sub_le _ _) t.isLt)).1
        (scAt0 V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 HO Hg]
      · isplitl [HS0]; · iexact HS0
        isplitl [HS1]; · iexact HS1
        isplitl [HO]; · iexact HO
        iexact Hg
      isplitl [Ho]; · iexact Ho
      isplitl [H0]; · iexact H0
      isplitl [H1]; · iexact H1
      isplitl [H2]; · iexact H2
      isplitl [H3]; · iexact H3
      iexact H4

/-- The body obligation of the pooling pipeline, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest back, the accumulators' contents forgotten. -/
theorem hout0 (c : Dev nD) : (dat0 V c).Φ (Fin.last cfg0.N) ⊢ Pipeline.ΦA spec0 c := by
  rw [show (dat0 V c).Φ (Fin.last cfg0.N)
      = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS0, HS1, HO, Hg⟩
  isplitl [HS0 HS1 HO]
  · isplitl [HS0]; · iexists _; iexact HS0
    isplitl [HS1]; · iexists _; iexact HS1
    iexact HO
  iexact Hg

/-- The gate window's block index is (0, 0) at every point, and its block has the array's own sizes: the offsets of
    its block in the array are zero on both axes. -/
theorem gateOff0 (t : Fin cfg0.N) : (fun a => win0_4.index t a * main_v1.ty.shape.size a) = fun _ => 0 :=
  funext fun a => by fin_cases a <;> rfl

/-- A write-back of the gate window writes the gate: its block, read off an array holding the gate, is the gate. -/
theorem flushed0_4 (c : Dev nD) (t : Fin cfg0.N) (hf : (cfg0.win 4).flush t = true) :
    (dat0 V c).flushed 4 t = ((cfg0.win 4).blk t).view.read (Elt F) (gate0 V c) := by
  show (cfg0.win 4).cut (grid0.coords t) ((dat0 V c).after 4 t) = _
  rw [after0_4]
  exact (Memref.read_access_unit_zero (Elt F) main_v1 (gateOff0 t)
    (fun a => by rw [congrFun (gateOff0 t) a]; simp) (gate0 V c)).symm

/-- The gate's array after the region: the one write-back, at the last point, covers it. -/
theorem gate_final0 (c : Dev nD) : (dat0 V c).arrAt 4 cfg0.N = gate0 V c :=
  (dat0 V c).arrAt_eq_of_cover 4 (gate0 V c) (flushed0_4 V c) fun i =>
    ⟨⟨63, lastLt0⟩, (flush0_4 _).mpr rfl, by
      show i ∈ ((View.whole main_v1).slice (win0_4.rect ⟨63, lastLt0⟩)).set
      rw [View.set_slice_whole, Rect.mem_set_unit]
      intro a
      have h0 : (i 0 : Nat) < 8 := (i 0).isLt
      have h1 : (i 1 : Nat) < 256 := (i 1).isLt
      have hz := congrFun (gateOff0 ⟨63, lastLt0⟩) a
      match a with
      | ⟨0, _⟩ =>
        show win0_4.index ⟨63, lastLt0⟩ 0 * win0_4.size 0 ≤ (i 0 : Nat)
          ∧ (i 0 : Nat) < win0_4.index ⟨63, lastLt0⟩ 0 * win0_4.size 0 + win0_4.xsize (grid0.coords ⟨63, lastLt0⟩) 0
        rw [show win0_4.index ⟨63, lastLt0⟩ 0 * win0_4.size 0 = 0 from hz,
          show win0_4.xsize (grid0.coords ⟨63, lastLt0⟩) 0 = 8 from rfl]
        omega
      | ⟨1, _⟩ =>
        show win0_4.index ⟨63, lastLt0⟩ 1 * win0_4.size 1 ≤ (i 1 : Nat)
          ∧ (i 1 : Nat) < win0_4.index ⟨63, lastLt0⟩ 1 * win0_4.size 1 + win0_4.xsize (grid0.coords ⟨63, lastLt0⟩) 1
        rw [show win0_4.index ⟨63, lastLt0⟩ 1 * win0_4.size 1 = 0 from hz,
          show win0_4.xsize (grid0.coords ⟨63, lastLt0⟩) 1 = 256 from rfl]
        omega⟩

end Regions

end Cert.KernelIdeal.Hand

end
-- ==== Proof.KI.Mul.lean ====
import proofs.«431042_j2559800508872_2_alg».proof.Proof.Gen.KernelIdeal.Launch
import proofs.«431042_j2559800508872_2_alg».proof.Proof.Gen.KernelIdeal.Skeleton
import proofs.«431042_j2559800508872_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The literal zero offsets of a rank-two rectangle are the zero function. -/
private theorem zeros2 : (![0, 0] : Fin 2 → Nat) = fun _ => 0 := funext fun a => by fin_cases a <;> rfl

/-! The multiply kernel's body as a triple over whole staging memrefs: one control case, one store covering the output buffer. -/

/-- The multiply kernel at any point: the output buffer ends at the tile's features times each point's gate row. -/
theorem mul_body (c : Dev nD) (E : Set ℕ) (i : grid1.Coords)
    (arg1 : Memref sig .tc .vmem S8192x256 .f32) (harg1 : arg1.IsWhole) (arg2 : Memref sig .tc .vmem S8192x1 .i32) (harg2 : arg2.IsWhole)
    (arg3 : Memref sig .tc .vmem S8x256 .f32) (harg3 : arg3.IsWhole) (arg4 : Memref sig .tc .vmem S8192x256 .f32) (harg4 : arg4.IsWhole)
    (x1 : Vec F S8192x256 .f32) (x2 : Vec F S8192x1 .i32) (x3 : Vec F S8x256 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3
            ∗ owns (c : Thread nD τ) arg4 fullShare (k1_pay1 x1 x2 x3)) -∗ K ⟨⟩))
      ⊢ wp frame (wpE (defs₀ (F := F)) Variants.none c none) E
          (cc1__mul_kernel i arg1 harg1 arg2 harg2 arg3 harg3 arg4 harg4) K := by
  simp only [cc1__mul_kernel_eq_skeleton]; unfold cc1__mul_kernel_skel
  unfold owns
  iintro ⟨⟨%f1, %hf1, H1⟩, ⟨%f2, %hf2, H2⟩, ⟨%f3, %hf3, H3⟩, ⟨%d, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so what is read back is its payload; each whole-rectangle load is the contents
  refine (View.read_writes_eq_canon _ _ _ ?_).trans ?_
  · intro y
    exact ⟨_, List.mem_singleton_self _,
      View.mem_set_unit_zero (S := S8192x256) zeros2 inb_S8192x256_S8192x256_0_0 y⟩
  · rw [View.canon_unit_zero (S := S8192x256) zeros2 inb_S8192x256_S8192x256_0_0]
    simp only [Rect.toLoadRect, View.readAt_eq_ld]
    rw [View.ld_unit_zero (S := S8192x256) zeros2 inb_S8192x256_S8192x256_0_0,
      View.ld_unit_zero (S := S8192x1) zeros2 inb_S8192x1_S8192x1_0_0,
      View.ld_unit_zero (S := S8x256) zeros2 inb_S8x256_S8x256_0_0]

end Cert.KernelIdeal.Hand

end
-- ==== Proof.KI.Data1.lean ====
import proofs.«431042_j2559800508872_2_alg».proof.Proof.Gen.KernelIdeal.Launch
import proofs.«431042_j2559800508872_2_alg».proof.Proof.Gen.KernelIdeal.Skeleton
import proofs.«431042_j2559800508872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.KI.Mul

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The proof data of the multiply pipeline (pipeline 1), at a parameter `V`: the buffer contents when the region is entered. -/

section Regions

variable (V : (c : Dev nD) → (b : Ref sig .tc) → Buf (Elt F) ((c : Thread nD τ).loc b))

/-! ## Multiply region (pipeline 1): windows 0..2 inputs (features tile, index tile, the gate), window 3 the result -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the multiply pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = k1_pay1 (iblk1 V c 0 t) (iblk1 V c 1 t) (iblk1 V c 2 t) := by dsimp only [dat1]

/-! ## What the body finds in each input window's buffer -/

private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]

/-- The features tile's buffer holds its block at every point: the body leaves the block in place, and where no
    fetch happens the block index has not moved. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The index tile's buffer holds its block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The gate's buffer holds its block at every point, although it is fetched at the first point only: its block
    index is constant along the grid. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation at one point -/

/-- What the body is handed at point `t`: the invariant, what the core owes, and the four current buffers. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, the inputs in place, the output at the product. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the multiply triple applies with the
    output buffer at whatever it held; the invariant and the debt are not read and pass through. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (mul_body c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the multiply pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
import proofs.«431042_j2559800508872_2_alg».proof.Proof.Gen.KernelIdeal.Launch
import proofs.«431042_j2559800508872_2_alg».proof.Proof.Gen.KernelIdeal.Skeleton
import proofs.«431042_j2559800508872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431042_j2559800508872_2_alg».proof.Proof.KI.Data0
import proofs.«431042_j2559800508872_2_alg».proof.Proof.KI.Data1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The run of @main: one host operation (the index vector reshaped to a column), the pooling region, the multiply
    region. The buffer contents at each boundary are a fold from the launch memory; the run ends with every unscoped
    buffer at the last boundary's contents, from which the frame (the arguments as launched) and the result array are
    read. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the pooling region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the multiply region's exit. -/
def W3 (c : Dev nD) : Valuation τ sig (Elt F) :=
  Pipeline.withArrays spec1 c (W2 m ρ c) fun w => (dat1 (V2 m ρ) c).arrAt w cfg1.N

/-! ## Reading the fold

A region's exit contents agree with its pipeline's final arrays at the windows' arrays and with the entry contents
everywhere else; the host operation writes `main_v0` only. -/

private theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

private theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

private theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

private theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- An input window of the pooling region leaves its array as entered. -/
private theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- An input window of the multiply region leaves its array as entered. -/
private theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- The reshape writes the column `main_v0` and nothing else. -/
private theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

private theorem hF0 (c : Dev nD) (w : Fin cfg0.W) : (dat0 (V1 m ρ) c).arrAt w cfg0.N = V2 m ρ c (Pipeline.arrRef spec0 w) :=
  (W2_arr m ρ c w).symm
private theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The last boundary's contents read at the TensorCore's references. -/
private abbrev V3 : (c : Dev nD) → (b : Ref sig .tc) → Buf (Elt F) ((c : Thread nD τ).loc b) := fun c b => W3 m ρ c b
private theorem hF1 (c : Dev nD) (w : Fin cfg1.W) : (dat1 (V2 m ρ) c).arrAt w cfg1.N = V3 m ρ c (Pipeline.arrRef spec1 w) :=
  (W3_arr m ρ c w).symm
private theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- No pipeline has a prefetched table. -/
private abbrev adm : (p : Fin 2) → (pcfgs (F := F) p).Adm := fun p => (cfgs p).toPCfg_adm
/-- Each pipeline's proof data at its region's entry contents: the pooling pipeline at the contents after the
    reshape, the multiply pipeline at the pooling region's exit contents. -/
private def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
private abbrev 𝒱₀ : Variants := Variants.none
/-- No core owes another anything. -/
private abbrev L : GSem nD τ sig → Finset Unit := fun _ => ∅
private abbrev lv : GSem nD τ sig → Unit → ℕ := fun _ _ => 0
/-- Beside the buffers through every segment: the generator register at some state, and nothing owed. -/
private abbrev R (c : Dev nD) : sProp 𝕄 := iprop((∃ r, prngReg c r) ∗ ∃ W, owes (c : Thread nD τ) (0 : CellTallies nD τ sig Unit) W)
/-- The thread state at a boundary: every unscoped buffer at the boundary's contents, beside `R`. -/
private abbrev T (W : Dev nD → Valuation τ sig (Elt F)) (c : Dev nD) : sProp 𝕄 :=
  iprop(StableHlo.held (c : Thread nD τ) (Pipeline.ucRefs τ sig) (W c) ∗ R c)

private theorem hostOps0_fresh : (hostOps0 : List (HloOp τ sig (Elt F))).Forall fun op => op.fresh = ∅ := by
  simp only [List.Forall]; repeat' constructor

/-- The host stretch as a segment, from the launch contents. -/
private abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- The last thread state without the `owes`. -/
private abbrev Tₙ (c : Dev nD) : sProp 𝕄 :=
  iprop(StableHlo.held (c : Thread nD τ) (Pipeline.ucRefs τ sig) (W3 m ρ c) ∗ ∃ r, prngReg c r)

/-! ## The regions as segments -/

set_option backward.isDefEq.respectTransparency.types false in
/-- The pooling region: entered with every unscoped buffer at `W1`, left at `W2`. Its arrays are split out of the
    unscoped buffers at entry and put back at exit; the generator register and the scoped rest pass through the
    pipeline's invariant, whose first and last points are `hin0` and `hout0`. -/
private def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := T (W1 m ρ) c
  post c := T (W2 m ρ) c
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The multiply region: entered at `W2` (what the pooling region left), left at `W3`. Its invariant is the scoped
    rest and the generator register at every point. -/
private def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := T (W2 m ρ) c
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments: the host operation, then the two regions back to back. -/
private abbrev segs : List (Pipeline.Seg (pcfgs (F := F)) adm (pdats m ρ) () defs₀ 𝒱₀ L lv) :=
  [ .host (hseg0 m ρ), .region (reg0 m ρ), .region (reg1 m ρ) ]

private theorem main_run (c : Dev nD) : main (F := F) c = Pipeline.Seg.run (segs m ρ) :=
  main_segs adm (pdats m ρ) () 𝒱₀ L lv (hseg0 m ρ) (reg0 m ρ) (reg1 m ρ) rfl c

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- An unscoped TensorCore reference is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The arguments end as launched. -/
theorem W3_main_arg0 (c : Dev nD) : W3 m ρ c (Proc.devRef .tc main_arg0) = m ((c : Thread nD τ).loc main_arg0) :=
  (W3_in m ρ c 0 rfl).trans <| (W2_in m ρ c 0 rfl).trans <| (W1_of_ne m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_in m ρ c 2 rfl).trans <| (W1_of_ne m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_in m ρ c 3 rfl).trans <| (W1_of_ne m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of_ne m ρ c main_arg3 (by decide)).trans rfl

/-- The result array ends at what the multiply pipeline's write-backs leave. -/
theorem W3_main_v2 (c : Dev nD) : W3 m ρ c (Proc.devRef .tc main_v2) = (dat1 (V2 m ρ) c).arrAt 3 cfg1.N :=
  W3_arr m ρ c 3

/-! What the multiply region finds in its input arrays. -/
theorem V2_main_arg0 (c : Dev nD) : V2 m ρ c main_arg0 = m ((c : Thread nD τ).loc main_arg0) :=
  (W2_in m ρ c 0 rfl).trans <| (W1_of_ne m ρ c main_arg0 (by decide)).trans rfl
theorem V2_main_v0 (c : Dev nD) : V2 m ρ c main_v0 = V1 m ρ c main_v0 :=
  W2_in m ρ c 1 rfl
/-- The gate as the pooling region left it. -/
theorem V2_main_v1 (c : Dev nD) : V2 m ρ c main_v1 = gate0 (V1 m ρ) c :=
  (W2_arr m ρ c 4).trans (gate_final0 (V1 m ρ) c)

/-! What the pooling region finds in its input arrays. -/
theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_of_ne m ρ c main_arg1 (by decide)).trans rfl
theorem V1_main_arg2 (c : Dev nD) : V1 m ρ c main_arg2 = m ((c : Thread nD τ).loc main_arg2) :=
  (W1_of_ne m ρ c main_arg2 (by decide)).trans rfl

/-- The frame claim at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Val.Spec.lean ====
import Idealize.ShloMosaic.PureOps.Ideal
import Idealize.ShloMosaic.Lib.ValueIdx

noncomputable section

/-! The squeeze-and-excite layer over sparse points as ONE function of the four argument arrays, index by index, on the
    extended reals. Point `n` belongs to batch `b` when its index word, read signed, is `b`. Per batch: the sum of its
    points' feature rows and their count; the mean (the count floored at one); the hidden layer (a product with the
    first weight matrix, floored at zero); the logit (a product with the second); the gate (the logistic of the logit).
    Each point's feature row is multiplied by its batch's gate row, written as the sum over the eight batches of the
    rows selected by the point's index (one summand survives when the index is in range). -/

namespace Cert.Spec

open Idealize.ShloMosaic Idealize.ShloMosaic.ValueIdx

abbrev SNC : Shape := ⟨2, ![524288, 256]⟩
abbrev SN : Shape := ⟨1, ![524288]⟩
abbrev SW1 : Shape := ⟨2, ![256, 16]⟩
abbrev SW2 : Shape := ⟨2, ![16, 256]⟩

variable (feat : SNC.Idx → EReal) (w1 : SW1.Idx → EReal) (w2 : SW2.Idx → EReal) (bidx : IVec SN 32)

/-- Point `n` belongs to batch `b`. -/
abbrev sel (n : Fin 524288) (b : Fin 8) : Prop := (bidx (ix1 n)).toInt = (b.val : ℤ)

/-- Every index word, read signed, names one of the eight batches. -/
def InRange : Prop := ∀ n : Fin 524288, 0 ≤ (bidx (ix1 n)).toInt ∧ (bidx (ix1 n)).toInt < 8

/-- The sum of batch `b`'s feature rows, column `c`. -/
def sums (b : Fin 8) (c : Fin 256) : EReal := ∑ n : Fin 524288, if sel bidx n b then feat (ix2 n c) else 0

/-- The number of points of batch `b`. -/
def counts (b : Fin 8) : EReal := ∑ n : Fin 524288, if sel bidx n b then (1 : EReal) else 0

/-- The batch's mean feature row (an empty batch divides by one). -/
def pooled (b : Fin 8) (c : Fin 256) : EReal := Ideal.div (sums feat bidx b c) (max (counts bidx b) 1)

/-- The hidden layer: the mean row times the first weight matrix, floored at zero. -/
def hidden (b : Fin 8) (j : Fin 16) : EReal := max (∑ c : Fin 256, pooled feat bidx b c * w1 (ix2 c j)) 0

/-- The logit: the hidden row times the second weight matrix. -/
def logit (b : Fin 8) (c : Fin 256) : EReal := ∑ j : Fin 16, hidden feat w1 bidx b j * w2 (ix2 j c)

/-- The gate of batch `b`, column `c`. -/
def gate (b : Fin 8) (c : Fin 256) : EReal := Ideal.logistic (logit feat w1 w2 bidx b c)

/-- The result: each point's feature row times the gate row of its batch. -/
def out : SNC.Idx → EReal := fun i =>
  feat i * ∑ b : Fin 8, if sel bidx (i 0) b then gate feat w1 w2 bidx b (i 1) else 0

end Cert.Spec

end
-- ==== Proof.Val.Blocks0.lean ====
import proofs.«431042_j2559800508872_2_alg».proof.Proof.KI.Run
import proofs.«431042_j2559800508872_2_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-! What the pooling region's windows hold at each grid point, read off the launch memory: tile `t` of the features
    is rows `8192 t … 8192 t + 8191`; the index column the region reads is the index vector reshaped, so its tile is
    the same rows of the vector; each weight matrix is one block, the whole array. -/

variable (m : (ℓ : Loc nD τ sig) → Buf (Elt Ideal) ℓ) (ρ : Dev nD → PrngReg)

/-- The argument arrays at launch, at their literal types. -/
abbrev featArr (c : Dev nD) : Vec Ideal S524288x256 .f32 := m ((c.tc : Thread nD τ).loc main_arg0)
abbrev w1Arr (c : Dev nD) : Vec Ideal S256x16 .f32 := m ((c.tc : Thread nD τ).loc main_arg1)
abbrev w2Arr (c : Dev nD) : Vec Ideal S16x256 .f32 := m ((c.tc : Thread nD τ).loc main_arg2)
abbrev idxArr (c : Dev nD) : Vec Ideal S524288 .i32 := m ((c.tc : Thread nD τ).loc main_arg3)

/-- The pooling region's input blocks at point `t`, at their literal types. -/
abbrev featBlk (c : Dev nD) (t : Fin cfg0.N) : Vec Ideal S8192x256 .f32 := iblk0 (V1 m ρ) c 0 t
abbrev idxBlk (c : Dev nD) (t : Fin cfg0.N) : Vec Ideal S8192x1 .i32 := iblk0 (V1 m ρ) c 1 t
abbrev w1Blk (c : Dev nD) (t : Fin cfg0.N) : Vec Ideal S256x16 .f32 := iblk0 (V1 m ρ) c 2 t
abbrev w2Blk (c : Dev nD) (t : Fin cfg0.N) : Vec Ideal S16x256 .f32 := iblk0 (V1 m ρ) c 3 t

/-- Row `r` of tile `t` is a row of the array. -/
theorem tile_lt (t : Fin cfg0.N) (r : Fin 8192) : t.val * 8192 + r.val < 524288 := by
  have : t.val < 64 := lt_of_lt_of_eq t.isLt (show cfg0.N = 64 from N_0)
  omega

/-- The windows' block indices, decided over the grid: the feature and index windows step one block of rows per point
    and stay in column block 0; both weight windows stay at block (0, 0). -/
private theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A block's coordinate on an axis is its block index times the block size plus the coordinate inside the block; the
    features are as launched when the region is entered. -/
theorem featBlk_apply (c : Dev nD) (t : Fin cfg0.N) (r : Fin 8192) (cc : Fin 256) :
    featBlk m ρ c t (ix2 r cc) = featArr m c (ix2 ⟨t.val * 8192 + r.val, tile_lt t r⟩ cc) := by
  obtain ⟨e0, e1, -⟩ := blockIdx0 t
  show V1 m ρ c main_arg0 (((cfg0.win 0).blk t).view.emb (ix2 r cc)) = _
  rw [V1_main_arg0]
  refine congrArg _ (funext fun a => Fin.ext ?_)
  match a with
  | ⟨0, _⟩ => show win0_0.index t (0 : Fin 2) * 8192 + 1 * r.val = t.val * 8192 + r.val; omega
  | ⟨1, _⟩ => show win0_0.index t (1 : Fin 2) * 256 + 1 * cc.val = cc.val; omega

/-- The column the region reads is the index vector laid out as one column, by the reshape that runs before the region. -/
private theorem idxCol_eq (c : Dev nD) :
    (V1 m ρ c main_v0 : S524288x1.Idx → Elt Ideal .i32) = shapeCast S524288x1 (idxArr m c) shapeCasts_S524288_S524288x1 := by
  dsimp only [V1, W1, hostOps0]; after_results; rfl

/-- Row `r` of the column's tile `t` is at row-major position `8192 t + r` of the column, which is entry `8192 t + r` of the
    vector. -/
theorem idxBlk_apply (c : Dev nD) (t : Fin cfg0.N) (r : Fin 8192) :
    idxBlk m ρ c t (ix2 r 0) = idxArr m c (ix1 ⟨t.val * 8192 + r.val, tile_lt t r⟩) := by
  obtain ⟨-, -, e0, e1, -⟩ := blockIdx0 t
  show (V1 m ρ c main_v0 : S524288x1.Idx → Elt Ideal .i32) (((cfg0.win 1).blk t).view.emb (ix2 r 0)) = _
  rw [idxCol_eq]
  refine shapeCast_apply _ _ _ (ix1 ⟨t.val * 8192 + r.val, tile_lt t r⟩) ?_
  rw [Shape.rowMajor_val_one, Shape.rowMajor_val_two]
  show t.val * 8192 + r.val = (win0_1.index t (0 : Fin 2) * 8192 + 1 * r.val) * 1 + (win0_1.index t (1 : Fin 2) * 1 + 1 * 0)
  omega

/-- The first weight matrix's one block, at block (0, 0) with the array's own sizes, is the array. -/
theorem w1Blk_eq (c : Dev nD) (t : Fin cfg0.N) : w1Blk m ρ c t = w1Arr m c := by
  obtain ⟨-, -, -, -, e0, e1, -⟩ := blockIdx0 t
  funext y
  show V1 m ρ c main_arg1 (((cfg0.win 2).blk t).view.emb y) = _
  rw [V1_main_arg1]
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 16 + 1 * (y 1).val = (y 1).val; omega

/-- Likewise the second weight matrix's. -/
theorem w2Blk_eq (c : Dev nD) (t : Fin cfg0.N) : w2Blk m ρ c t = w2Arr m c := by
  obtain ⟨-, -, -, -, -, -, e0, e1⟩ := blockIdx0 t
  funext y
  show V1 m ρ c main_arg2 (((cfg0.win 3).blk t).view.emb y) = _
  rw [V1_main_arg2]
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 256 + 1 * (y 1).val = (y 1).val; omega

end Cert.KernelIdeal.HandValue

end
-- ==== Proof.Val.PayPool.lean ====
import proofs.«431042_j2559800508872_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen

/-! The pooling kernel's accumulator payloads read at an index, on the extended reals. The selector matrix has a one
    where the tile's index word, read signed, is the column's batch and a zero elsewhere; its transposed product
    with the tile's features is, per batch and column, the sum of the selected feature entries; with a column of ones,
    the number of selected points. -/

/-- The word of a batch number below eight, read signed, is the number. -/
private theorem toInt_ofNat_batch (b : Fin 8) : (BitVec.ofNat 32 b.val).toInt = (b.val : ℤ) := by
  fin_cases b <;> decide

/-- A word compared with a batch number's word, the bit widened and converted signed: one where the word, read
    signed, is the number, zero elsewhere. -/
private theorem bit_at (x : BitVec 32) (b : Fin 8) :
    (FloatOps.sitofp (F := Ideal) .f32 ((IntOp.cmpi .eq x (BitVec.ofNat 32 b.val)).setWidth 32) : EReal)
      = if x.toInt = (b.val : ℤ) then (1 : EReal) else 0 := by
  show ((((IntOp.cmpi .eq x (BitVec.ofNat 32 b.val)).setWidth 32).toInt : ℝ) : EReal) = _
  rw [toInt_setWidth_bit]
  by_cases h : x = BitVec.ofNat 32 b.val
  · subst h
    rw [if_pos (toInt_ofNat_batch b)]
    simp [IntOp.cmpi]
  · have h' : ¬ x.toInt = (b.val : ℤ) := fun e => h (BitVec.toInt_inj.mp (e.trans (toInt_ofNat_batch b).symm))
    rw [if_neg h']
    simp [IntOp.cmpi, h]

/-- The tile's index column broadcast along the batches reads the point's index word. -/
private theorem column_apply (v4 : Vec Ideal S8192x1 .i32) (r : Fin 8192) (b : Fin 8) :
    broadcastTo S8192x8 (shapeCast S8192x1 v4 shapeCasts_S8192x1_S8192x1) broadcasts_S8192x1_S8192x8 (ix2 r b)
      = v4 (ix2 r 0) := by
  rw [shapeCast_self]
  exact broadcastTo_apply v4 broadcasts_S8192x1_S8192x8 (ix2 r b) (ix2 r 0) (fun a => match a with
    | ⟨0, _⟩ => by show r.val = if (8192 : Nat) = 1 then 0 else r.val; rw [if_neg (by decide)]
    | ⟨1, _⟩ => by show 0 = if (1 : Nat) = 1 then 0 else b.val; rw [if_pos rfl])

/-- The count along the batches reads the batch number's word. -/
private theorem batch_iota_apply (r : Fin 8192) (b : Fin 8) :
    iota .tc S8192x8 32 [1] iota_S8192x8_d1_w32 (ix2 r b) = BitVec.ofNat 32 b.val :=
  iota_single_apply .tc S8192x8 32 1 iota_S8192x8_d1_w32 (ix2 r b)

/-- The selector: one where point `r` of the tile belongs to batch `b`, zero elsewhere. -/
theorem onehot_apply (v4 : Vec Ideal S8192x1 .i32) (r : Fin 8192) (b : Fin 8) :
    k0_pay3 (F := Ideal) v4 (ix2 r b) = if (v4 (ix2 r 0)).toInt = (b.val : ℤ) then (1 : EReal) else 0 := by
  unfold k0_pay3
  show FloatOps.sitofp (F := Ideal) .f32 ((IntOp.cmpi .eq
      (broadcastTo S8192x8 (shapeCast S8192x1 v4 shapeCasts_S8192x1_S8192x1) broadcasts_S8192x1_S8192x8 (ix2 r b))
      (iota .tc S8192x8 32 [1] iota_S8192x8_d1_w32 (ix2 r b))).setWidth 32) = _
  rw [column_apply, batch_iota_apply]
  exact bit_at (v4 (ix2 r 0)) b

/-- The cleared sums. -/
theorem pay1_apply (i : S8x256.Idx) : k0_pay1 (F := Ideal) i = (0 : EReal) := by
  unfold k0_pay1
  show shapeCast S8x256 (broadcast S8x256 (Scalar.ofBits (F := Ideal) .f32 0x00000000#32)) shapeCasts_S8x256_S8x256 i = _
  rw [shapeCast_self]
  exact Ideal.ofBits_zero_f32

/-- The cleared counts. -/
theorem pay2_apply (i : S8x1.Idx) : k0_pay2 (F := Ideal) i = (0 : EReal) := by
  unfold k0_pay2
  show shapeCast S8x1 (broadcast S8x1 (Scalar.ofBits (F := Ideal) .f32 0x00000000#32)) shapeCasts_S8x1_S8x1 i = _
  rw [shapeCast_self]
  exact Ideal.ofBits_zero_f32

/-! The sums' product `selectorᵀ · features`: its operand indices by coordinates. Both operands are contracted over
    their axis 0, the points of the tile; the result's row is the selector's column, its column the features'. -/

private theorem sumsLhs_0 (i : S8x256.Idx) (q : dot_S8192x8_S8192x256_S8x256_0_0_1_1_n_n.contr.Idx) :
    (dot_S8192x8_S8192x256_S8x256_0_0_1_1_n_n.lhsIdx i q 0).val = (q ⟨0, by decide⟩).val :=
  dot_S8192x8_S8192x256_S8x256_0_0_1_1_n_n.lhsIdx_val_of_single rfl i q
private theorem sumsLhs_1 (i : S8x256.Idx) (q : dot_S8192x8_S8192x256_S8x256_0_0_1_1_n_n.contr.Idx) :
    (dot_S8192x8_S8192x256_S8x256_0_0_1_1_n_n.lhsIdx i q 1).val = (i 0).val := by
  unfold DotDims.lhsIdx
  rw [dif_neg (show ¬(1 : Fin S8192x8.rank) ∈ dot_S8192x8_S8192x256_S8x256_0_0_1_1_n_n.lhsBatch by decide), dif_pos (show (1 : Fin S8192x8.rank) ∈ dot_S8192x8_S8192x256_S8x256_0_0_1_1_n_n.lhsNonContracting by decide)]
  rfl
private theorem sumsRhs_0 (i : S8x256.Idx) (q : dot_S8192x8_S8192x256_S8x256_0_0_1_1_n_n.contr.Idx) :
    (dot_S8192x8_S8192x256_S8x256_0_0_1_1_n_n.rhsIdx i q 0).val = (q ⟨0, by decide⟩).val :=
  dot_S8192x8_S8192x256_S8x256_0_0_1_1_n_n.rhsIdx_val_of_single rfl i q
private theorem sumsRhs_1 (i : S8x256.Idx) (q : dot_S8192x8_S8192x256_S8x256_0_0_1_1_n_n.contr.Idx) :
    (dot_S8192x8_S8192x256_S8x256_0_0_1_1_n_n.rhsIdx i q 1).val = (i 1).val := by
  unfold DotDims.rhsIdx
  rw [dif_neg (show ¬(1 : Fin S8192x256.rank) ∈ dot_S8192x8_S8192x256_S8x256_0_0_1_1_n_n.rhsBatch by decide), dif_pos (show (1 : Fin S8192x256.rank) ∈ dot_S8192x8_S8192x256_S8x256_0_0_1_1_n_n.rhsNonContracting by decide)]
  rfl

/-- The product into the zero accumulator, at batch `b` and column `c`: the sum over the tile's points of the left
    operand at (point, batch) times the right at (point, column). -/
private theorem sums_product_apply (A : FVec Ideal S8192x8 .f32) (v3 : FVec Ideal S8192x256 .f32) (b : Fin 8) (c : Fin 256) :
    matmul dot_S8192x8_S8192x256_S8x256_0_0_1_1_n_n none A v3 (constant (F := Ideal) S8x256 .f32 0x00000000#32) (ix2 b c)
      = ∑ r : Fin 8192, A (ix2 r b) * v3 (ix2 r c) := by
  simp only [matmul]
  rw [Ideal.matmul_constant_zero_apply, ← Equiv.sum_comp (contrEquiv1 dot_S8192x8_S8192x256_S8x256_0_0_1_1_n_n 8192 rfl rfl).symm]
  refine Finset.sum_congr rfl fun k _ => ?_
  have hk := contrEquiv1_symm_val dot_S8192x8_S8192x256_S8x256_0_0_1_1_n_n 8192 rfl rfl k
  have el : dot_S8192x8_S8192x256_S8x256_0_0_1_1_n_n.lhsIdx (ix2 b c) ((contrEquiv1 dot_S8192x8_S8192x256_S8x256_0_0_1_1_n_n 8192 rfl rfl).symm k) = ix2 k b := funext fun a => Fin.ext (by
    match a with
    | ⟨0, _⟩ => exact (sumsLhs_0 _ _).trans hk
    | ⟨1, _⟩ => exact sumsLhs_1 _ _)
  have er : dot_S8192x8_S8192x256_S8x256_0_0_1_1_n_n.rhsIdx (ix2 b c) ((contrEquiv1 dot_S8192x8_S8192x256_S8x256_0_0_1_1_n_n 8192 rfl rfl).symm k) = ix2 k c := funext fun a => Fin.ext (by
    match a with
    | ⟨0, _⟩ => exact (sumsRhs_0 _ _).trans hk
    | ⟨1, _⟩ => exact sumsRhs_1 _ _)
  rw [el, er]

/-- A selector entry times a value keeps the value where the entry is one and is zero elsewhere (on the extended
    reals too: zero times an infinity is zero). -/
private theorem select_mul (p : Prop) [Decidable p] (x : EReal) :
    (if p then (1 : EReal) else 0) * x = if p then x else 0 := by
  rw [ite_mul, one_mul, zero_mul]

/-- The sums after a tile: what they held plus the tile's selected feature entries. -/
theorem pay4_apply (v3 : Vec Ideal S8192x256 .f32) (v4 : Vec Ideal S8192x1 .i32) (v14 : Vec Ideal S8x256 .f32) (b : Fin 8) (c : Fin 256) :
    k0_pay4 (F := Ideal) v3 v4 v14 (ix2 b c)
      = v14 (ix2 b c) + ∑ r : Fin 8192, if (v4 (ix2 r 0)).toInt = (b.val : ℤ) then v3 (ix2 r c) else 0 := by
  unfold k0_pay4
  show shapeCast S8x256 (addf v14 (matmul dot_S8192x8_S8192x256_S8x256_0_0_1_1_n_n none (k0_pay3 (F := Ideal) v4) v3
      (constant (F := Ideal) S8x256 .f32 0x00000000#32))) shapeCasts_S8x256_S8x256 (ix2 b c) = _
  rw [shapeCast_self, addf_apply, sums_product_apply]
  refine congrArg (v14 (ix2 b c) + ·) (Finset.sum_congr rfl fun r _ => ?_)
  rw [onehot_apply, select_mul]

/-! The counts' product `selectorᵀ · ones`: the same contraction against a column. -/

private theorem countsLhs_0 (i : S8x1.Idx) (q : dot_S8192x8_S8192x1_S8x1_0_0_1_1_n_n.contr.Idx) :
    (dot_S8192x8_S8192x1_S8x1_0_0_1_1_n_n.lhsIdx i q 0).val = (q ⟨0, by decide⟩).val :=
  dot_S8192x8_S8192x1_S8x1_0_0_1_1_n_n.lhsIdx_val_of_single rfl i q
private theorem countsLhs_1 (i : S8x1.Idx) (q : dot_S8192x8_S8192x1_S8x1_0_0_1_1_n_n.contr.Idx) :
    (dot_S8192x8_S8192x1_S8x1_0_0_1_1_n_n.lhsIdx i q 1).val = (i 0).val := by
  unfold DotDims.lhsIdx
  rw [dif_neg (show ¬(1 : Fin S8192x8.rank) ∈ dot_S8192x8_S8192x1_S8x1_0_0_1_1_n_n.lhsBatch by decide), dif_pos (show (1 : Fin S8192x8.rank) ∈ dot_S8192x8_S8192x1_S8x1_0_0_1_1_n_n.lhsNonContracting by decide)]
  rfl
private theorem countsRhs_0 (i : S8x1.Idx) (q : dot_S8192x8_S8192x1_S8x1_0_0_1_1_n_n.contr.Idx) :
    (dot_S8192x8_S8192x1_S8x1_0_0_1_1_n_n.rhsIdx i q 0).val = (q ⟨0, by decide⟩).val :=
  dot_S8192x8_S8192x1_S8x1_0_0_1_1_n_n.rhsIdx_val_of_single rfl i q
private theorem countsRhs_1 (i : S8x1.Idx) (q : dot_S8192x8_S8192x1_S8x1_0_0_1_1_n_n.contr.Idx) :
    (dot_S8192x8_S8192x1_S8x1_0_0_1_1_n_n.rhsIdx i q 1).val = (i 1).val := by
  unfold DotDims.rhsIdx
  rw [dif_neg (show ¬(1 : Fin S8192x1.rank) ∈ dot_S8192x8_S8192x1_S8x1_0_0_1_1_n_n.rhsBatch by decide), dif_pos (show (1 : Fin S8192x1.rank) ∈ dot_S8192x8_S8192x1_S8x1_0_0_1_1_n_n.rhsNonContracting by decide)]
  rfl

/-- The product into the zero accumulator, at batch `b`: the sum over the tile's points of the left operand at
    (point, batch) times the column's entry at the point. -/
private theorem counts_product_apply (A : FVec Ideal S8192x8 .f32) (w : FVec Ideal S8192x1 .f32) (b : Fin 8) :
    matmul dot_S8192x8_S8192x1_S8x1_0_0_1_1_n_n none A w (constant (F := Ideal) S8x1 .f32 0x00000000#32) (ix2 b 0)
      = ∑ r : Fin 8192, A (ix2 r b) * w (ix2 r 0) := by
  simp only [matmul]
  rw [Ideal.matmul_constant_zero_apply, ← Equiv.sum_comp (contrEquiv1 dot_S8192x8_S8192x1_S8x1_0_0_1_1_n_n 8192 rfl rfl).symm]
  refine Finset.sum_congr rfl fun k _ => ?_
  have hk := contrEquiv1_symm_val dot_S8192x8_S8192x1_S8x1_0_0_1_1_n_n 8192 rfl rfl k
  have el : dot_S8192x8_S8192x1_S8x1_0_0_1_1_n_n.lhsIdx (ix2 b 0) ((contrEquiv1 dot_S8192x8_S8192x1_S8x1_0_0_1_1_n_n 8192 rfl rfl).symm k) = ix2 k b := funext fun a => Fin.ext (by
    match a with
    | ⟨0, _⟩ => exact (countsLhs_0 _ _).trans hk
    | ⟨1, _⟩ => exact countsLhs_1 _ _)
  have er : dot_S8192x8_S8192x1_S8x1_0_0_1_1_n_n.rhsIdx (ix2 b 0) ((contrEquiv1 dot_S8192x8_S8192x1_S8x1_0_0_1_1_n_n 8192 rfl rfl).symm k) = ix2 k 0 := funext fun a => Fin.ext (by
    match a with
    | ⟨0, _⟩ => exact (countsRhs_0 _ _).trans hk
    | ⟨1, _⟩ => exact countsRhs_1 _ _)
  rw [el, er]

/-- The counts after a tile: what they held plus the number of the tile's points in the batch. -/
theorem pay5_apply (v4 : Vec Ideal S8192x1 .i32) (v19 : Vec Ideal S8x1 .f32) (b : Fin 8) :
    k0_pay5 (F := Ideal) v4 v19 (ix2 b 0)
      = v19 (ix2 b 0) + ∑ r : Fin 8192, if (v4 (ix2 r 0)).toInt = (b.val : ℤ) then (1 : EReal) else 0 := by
  unfold k0_pay5
  show shapeCast S8x1 (addf v19 (matmul dot_S8192x8_S8192x1_S8x1_0_0_1_1_n_n none (k0_pay3 (F := Ideal) v4)
      (broadcast S8192x1 (Scalar.ofBits (F := Ideal) .f32 0x3F800000#32))
      (constant (F := Ideal) S8x1 .f32 0x00000000#32))) shapeCasts_S8x1_S8x1 (ix2 b 0) = _
  rw [shapeCast_self, addf_apply, counts_product_apply]
  refine congrArg (v19 (ix2 b 0) + ·) (Finset.sum_congr rfl fun r _ => ?_)
  rw [onehot_apply, broadcast_apply]
  show _ * Ideal.ofBits .f32 0x3F800000#32 = _
  rw [Ideal.ofBits_one_f32, mul_one]

end Cert.KernelIdeal.HandValue

end
-- ==== Proof.Val.PayGate.lean ====
import proofs.«431042_j2559800508872_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen

/-! The gate payload and the multiply kernel's payload read at an index, on the extended reals. -/

/-- The word of the float one denotes the extended real `1`. -/
private theorem ofBits_one_f32 : Ideal.ofBits .f32 0x3F800000#32 = 1 :=
  IdealRules.sign_bit.ideal_onePat .f32

/-! ## The first product: the mean row [8, 256] times the squeeze weights [256, 16] -/

private theorem lhs_sq_0 (i : S8x16.Idx) (q : dot_S8x256_S256x16_S8x16_1_0_0_1_n_n.contr.Idx) :
    (dot_S8x256_S256x16_S8x16_1_0_0_1_n_n.lhsIdx i q 0).val = (i 0).val := by
  unfold DotDims.lhsIdx
  rw [dif_neg (show ¬(0 : Fin S8x256.rank) ∈ dot_S8x256_S256x16_S8x16_1_0_0_1_n_n.lhsBatch by decide), dif_pos (show (0 : Fin S8x256.rank) ∈ dot_S8x256_S256x16_S8x16_1_0_0_1_n_n.lhsNonContracting by decide)]
  rfl
private theorem lhs_sq_1 (i : S8x16.Idx) (q : dot_S8x256_S256x16_S8x16_1_0_0_1_n_n.contr.Idx) :
    (dot_S8x256_S256x16_S8x16_1_0_0_1_n_n.lhsIdx i q 1).val = (q ⟨0, by decide⟩).val :=
  dot_S8x256_S256x16_S8x16_1_0_0_1_n_n.lhsIdx_val_of_single rfl i q
private theorem rhs_sq_0 (i : S8x16.Idx) (q : dot_S8x256_S256x16_S8x16_1_0_0_1_n_n.contr.Idx) :
    (dot_S8x256_S256x16_S8x16_1_0_0_1_n_n.rhsIdx i q 0).val = (q ⟨0, by decide⟩).val :=
  dot_S8x256_S256x16_S8x16_1_0_0_1_n_n.rhsIdx_val_of_single rfl i q
private theorem rhs_sq_1 (i : S8x16.Idx) (q : dot_S8x256_S256x16_S8x16_1_0_0_1_n_n.contr.Idx) :
    (dot_S8x256_S256x16_S8x16_1_0_0_1_n_n.rhsIdx i q 1).val = (i 1).val := by
  unfold DotDims.rhsIdx
  rw [dif_neg (show ¬(1 : Fin S256x16.rank) ∈ dot_S8x256_S256x16_S8x16_1_0_0_1_n_n.rhsBatch by decide), dif_pos (show (1 : Fin S256x16.rank) ∈ dot_S8x256_S256x16_S8x16_1_0_0_1_n_n.rhsNonContracting by decide)]
  rfl

/-- Into a zero accumulator the first product at `(b, j)` is the sum over the 256 features. -/
private theorem squeeze_apply (x : FVec Ideal S8x256 .f32) (w : FVec Ideal S256x16 .f32) (b : Fin 8) (j : Fin 16) :
    matmul dot_S8x256_S256x16_S8x16_1_0_0_1_n_n none x w (constant (F := Ideal) S8x16 .f32 0x00000000#32) (ix2 b j)
      = ∑ k : Fin 256, x (ix2 b k) * w (ix2 k j) := by
  simp only [matmul]
  rw [Ideal.matmul_constant_zero_apply, ← Equiv.sum_comp (contrEquiv1 dot_S8x256_S256x16_S8x16_1_0_0_1_n_n 256 rfl rfl).symm]
  refine Finset.sum_congr rfl fun k _ => ?_
  have hk := contrEquiv1_symm_val dot_S8x256_S256x16_S8x16_1_0_0_1_n_n 256 rfl rfl k
  have el : dot_S8x256_S256x16_S8x16_1_0_0_1_n_n.lhsIdx (ix2 b j) ((contrEquiv1 dot_S8x256_S256x16_S8x16_1_0_0_1_n_n 256 rfl rfl).symm k) = ix2 b k := funext fun a => Fin.ext (by
    match a with
    | ⟨0, _⟩ => exact lhs_sq_0 _ _
    | ⟨1, _⟩ => exact (lhs_sq_1 _ _).trans hk)
  have er : dot_S8x256_S256x16_S8x16_1_0_0_1_n_n.rhsIdx (ix2 b j) ((contrEquiv1 dot_S8x256_S256x16_S8x16_1_0_0_1_n_n 256 rfl rfl).symm k) = ix2 k j := funext fun a => Fin.ext (by
    match a with
    | ⟨0, _⟩ => exact (rhs_sq_0 _ _).trans hk
    | ⟨1, _⟩ => exact rhs_sq_1 _ _)
  rw [el, er]

/-! ## The second product: the floored row [8, 16] times the excite weights [16, 256] -/

private theorem lhs_ex_0 (i : S8x256.Idx) (q : dot_S8x16_S16x256_S8x256_1_0_0_1_n_n.contr.Idx) :
    (dot_S8x16_S16x256_S8x256_1_0_0_1_n_n.lhsIdx i q 0).val = (i 0).val := by
  unfold DotDims.lhsIdx
  rw [dif_neg (show ¬(0 : Fin S8x16.rank) ∈ dot_S8x16_S16x256_S8x256_1_0_0_1_n_n.lhsBatch by decide), dif_pos (show (0 : Fin S8x16.rank) ∈ dot_S8x16_S16x256_S8x256_1_0_0_1_n_n.lhsNonContracting by decide)]
  rfl
private theorem lhs_ex_1 (i : S8x256.Idx) (q : dot_S8x16_S16x256_S8x256_1_0_0_1_n_n.contr.Idx) :
    (dot_S8x16_S16x256_S8x256_1_0_0_1_n_n.lhsIdx i q 1).val = (q ⟨0, by decide⟩).val :=
  dot_S8x16_S16x256_S8x256_1_0_0_1_n_n.lhsIdx_val_of_single rfl i q
private theorem rhs_ex_0 (i : S8x256.Idx) (q : dot_S8x16_S16x256_S8x256_1_0_0_1_n_n.contr.Idx) :
    (dot_S8x16_S16x256_S8x256_1_0_0_1_n_n.rhsIdx i q 0).val = (q ⟨0, by decide⟩).val :=
  dot_S8x16_S16x256_S8x256_1_0_0_1_n_n.rhsIdx_val_of_single rfl i q
private theorem rhs_ex_1 (i : S8x256.Idx) (q : dot_S8x16_S16x256_S8x256_1_0_0_1_n_n.contr.Idx) :
    (dot_S8x16_S16x256_S8x256_1_0_0_1_n_n.rhsIdx i q 1).val = (i 1).val := by
  unfold DotDims.rhsIdx
  rw [dif_neg (show ¬(1 : Fin S16x256.rank) ∈ dot_S8x16_S16x256_S8x256_1_0_0_1_n_n.rhsBatch by decide), dif_pos (show (1 : Fin S16x256.rank) ∈ dot_S8x16_S16x256_S8x256_1_0_0_1_n_n.rhsNonContracting by decide)]
  rfl

/-- Into a zero accumulator the second product at `(b, c)` is the sum over the 16 hidden units. -/
private theorem excite_apply (x : FVec Ideal S8x16 .f32) (w : FVec Ideal S16x256 .f32) (b : Fin 8) (c : Fin 256) :
    matmul dot_S8x16_S16x256_S8x256_1_0_0_1_n_n none x w (constant (F := Ideal) S8x256 .f32 0x00000000#32) (ix2 b c)
      = ∑ j : Fin 16, x (ix2 b j) * w (ix2 j c) := by
  simp only [matmul]
  rw [Ideal.matmul_constant_zero_apply, ← Equiv.sum_comp (contrEquiv1 dot_S8x16_S16x256_S8x256_1_0_0_1_n_n 16 rfl rfl).symm]
  refine Finset.sum_congr rfl fun k _ => ?_
  have hk := contrEquiv1_symm_val dot_S8x16_S16x256_S8x256_1_0_0_1_n_n 16 rfl rfl k
  have el : dot_S8x16_S16x256_S8x256_1_0_0_1_n_n.lhsIdx (ix2 b c) ((contrEquiv1 dot_S8x16_S16x256_S8x256_1_0_0_1_n_n 16 rfl rfl).symm k) = ix2 b k := funext fun a => Fin.ext (by
    match a with
    | ⟨0, _⟩ => exact lhs_ex_0 _ _
    | ⟨1, _⟩ => exact (lhs_ex_1 _ _).trans hk)
  have er : dot_S8x16_S16x256_S8x256_1_0_0_1_n_n.rhsIdx (ix2 b c) ((contrEquiv1 dot_S8x16_S16x256_S8x256_1_0_0_1_n_n 16 rfl rfl).symm k) = ix2 k c := funext fun a => Fin.ext (by
    match a with
    | ⟨0, _⟩ => exact (rhs_ex_0 _ _).trans hk
    | ⟨1, _⟩ => exact rhs_ex_1 _ _)
  rw [el, er]

/-! ## The count column spread over the features -/

/-- An [8, 1] column broadcast to [8, 256] reads, at `(b, c)`, the column at `(b, 0)`. -/
private theorem column_apply (v : FVec Ideal S8x1 .f32) (b : Fin 8) (c : Fin 256) :
    broadcastTo S8x256 v broadcasts_S8x1_S8x256 (ix2 b c) = v (ix2 b 0) := by
  refine broadcastTo_apply v broadcasts_S8x1_S8x256 (ix2 b c) (ix2 b 0) fun a => ?_
  match a with
  | ⟨0, _⟩ => rfl
  | ⟨1, _⟩ => rfl

/-- The gate from finished sums and counts: mean, two matrix products with a floor at zero between, the logistic. -/
theorem pay6_apply (v27 : Vec Ideal S8x256 .f32) (v28 : Vec Ideal S8x1 .f32) (v33 : Vec Ideal S256x16 .f32) (v37 : Vec Ideal S16x256 .f32)
    (b : Fin 8) (c : Fin 256) :
    k0_pay6 (F := Ideal) v27 v28 v33 v37 (ix2 b c)
      = Ideal.logistic (∑ j : Fin 16,
          max (∑ c' : Fin 256, Ideal.div (v27 (ix2 b c')) (max (v28 (ix2 b 0)) 1) * v33 (ix2 c' j)) 0 * v37 (ix2 j c)) := by
  unfold k0_pay6
  show Ideal.logistic (matmul dot_S8x16_S16x256_S8x256_1_0_0_1_n_n none _ v37 (constant (F := Ideal) S8x256 .f32 0x00000000#32) (ix2 b c)) = _
  rw [excite_apply]
  refine congrArg Ideal.logistic (Finset.sum_congr rfl fun j _ => ?_)
  refine congrArg (fun t => t * v37 (ix2 j c)) ?_
  show max (matmul dot_S8x256_S256x16_S8x16_1_0_0_1_n_n none _ v33 (constant (F := Ideal) S8x16 .f32 0x00000000#32) (ix2 b j))
      (Ideal.ofBits .f32 0x00000000#32) = _
  rw [squeeze_apply, Ideal.ofBits_zero_f32]
  refine congrArg (fun t => max t 0) (Finset.sum_congr rfl fun c' _ => ?_)
  refine congrArg (fun t => t * v33 (ix2 c' j)) ?_
  show Ideal.div (v27 (ix2 b c')) (broadcastTo S8x256 _ broadcasts_S8x1_S8x256 (ix2 b c')) = _
  rw [column_apply]
  show Ideal.div _ (max (v28 (ix2 b 0)) (Ideal.ofBits .f32 0x3F800000#32)) = _
  rw [ofBits_one_f32]

/-! ## The third product: the row selector [8192, 8] times the gate [8, 256] -/

private theorem lhs_sel_0 (i : S8192x256.Idx) (q : dot_S8192x8_S8x256_S8192x256_1_0_0_1_n_n.contr.Idx) :
    (dot_S8192x8_S8x256_S8192x256_1_0_0_1_n_n.lhsIdx i q 0).val = (i 0).val := by
  unfold DotDims.lhsIdx
  rw [dif_neg (show ¬(0 : Fin S8192x8.rank) ∈ dot_S8192x8_S8x256_S8192x256_1_0_0_1_n_n.lhsBatch by decide), dif_pos (show (0 : Fin S8192x8.rank) ∈ dot_S8192x8_S8x256_S8192x256_1_0_0_1_n_n.lhsNonContracting by decide)]
  rfl
private theorem lhs_sel_1 (i : S8192x256.Idx) (q : dot_S8192x8_S8x256_S8192x256_1_0_0_1_n_n.contr.Idx) :
    (dot_S8192x8_S8x256_S8192x256_1_0_0_1_n_n.lhsIdx i q 1).val = (q ⟨0, by decide⟩).val :=
  dot_S8192x8_S8x256_S8192x256_1_0_0_1_n_n.lhsIdx_val_of_single rfl i q
private theorem rhs_sel_0 (i : S8192x256.Idx) (q : dot_S8192x8_S8x256_S8192x256_1_0_0_1_n_n.contr.Idx) :
    (dot_S8192x8_S8x256_S8192x256_1_0_0_1_n_n.rhsIdx i q 0).val = (q ⟨0, by decide⟩).val :=
  dot_S8192x8_S8x256_S8192x256_1_0_0_1_n_n.rhsIdx_val_of_single rfl i q
private theorem rhs_sel_1 (i : S8192x256.Idx) (q : dot_S8192x8_S8x256_S8192x256_1_0_0_1_n_n.contr.Idx) :
    (dot_S8192x8_S8x256_S8192x256_1_0_0_1_n_n.rhsIdx i q 1).val = (i 1).val := by
  unfold DotDims.rhsIdx
  rw [dif_neg (show ¬(1 : Fin S8x256.rank) ∈ dot_S8192x8_S8x256_S8192x256_1_0_0_1_n_n.rhsBatch by decide), dif_pos (show (1 : Fin S8x256.rank) ∈ dot_S8192x8_S8x256_S8192x256_1_0_0_1_n_n.rhsNonContracting by decide)]
  rfl

/-- Into a zero accumulator the third product at `(r, c)` is the sum over the 8 gate rows. -/
private theorem pick_apply (x : FVec Ideal S8192x8 .f32) (g : FVec Ideal S8x256 .f32) (r : Fin 8192) (c : Fin 256) :
    matmul dot_S8192x8_S8x256_S8192x256_1_0_0_1_n_n none x g (constant (F := Ideal) S8192x256 .f32 0x00000000#32) (ix2 r c)
      = ∑ b : Fin 8, x (ix2 r b) * g (ix2 b c) := by
  simp only [matmul]
  rw [Ideal.matmul_constant_zero_apply, ← Equiv.sum_comp (contrEquiv1 dot_S8192x8_S8x256_S8192x256_1_0_0_1_n_n 8 rfl rfl).symm]
  refine Finset.sum_congr rfl fun k _ => ?_
  have hk := contrEquiv1_symm_val dot_S8192x8_S8x256_S8192x256_1_0_0_1_n_n 8 rfl rfl k
  have el : dot_S8192x8_S8x256_S8192x256_1_0_0_1_n_n.lhsIdx (ix2 r c) ((contrEquiv1 dot_S8192x8_S8x256_S8192x256_1_0_0_1_n_n 8 rfl rfl).symm k) = ix2 r k := funext fun a => Fin.ext (by
    match a with
    | ⟨0, _⟩ => exact lhs_sel_0 _ _
    | ⟨1, _⟩ => exact (lhs_sel_1 _ _).trans hk)
  have er : dot_S8192x8_S8x256_S8192x256_1_0_0_1_n_n.rhsIdx (ix2 r c) ((contrEquiv1 dot_S8192x8_S8x256_S8192x256_1_0_0_1_n_n 8 rfl rfl).symm k) = ix2 k c := funext fun a => Fin.ext (by
    match a with
    | ⟨0, _⟩ => exact (rhs_sel_0 _ _).trans hk
    | ⟨1, _⟩ => exact rhs_sel_1 _ _)
  rw [el, er]

/-! ## The row selector: one where the point's index is the lane, zero elsewhere -/

/-- Below 8 a lane's word read signed is the lane. -/
private theorem toInt_lane (b : Fin 8) : (BitVec.ofNat 32 b.val).toInt = (b.val : ℤ) := by
  fin_cases b <;> rfl

/-- A 32-bit word is lane `b`'s word exactly when it reads signed as `b`. -/
private theorem word_eq_lane_iff (x : BitVec 32) (b : Fin 8) : x = BitVec.ofNat 32 b.val ↔ x.toInt = (b.val : ℤ) := by
  rw [← toInt_lane b]
  exact BitVec.toInt_inj.symm

/-- The comparison with lane `b`, widened and converted, is the indicator of "reads signed as `b`". -/
private theorem onehot_word (x : BitVec 32) (b : Fin 8) :
    FloatOps.sitofp (F := Ideal) .f32 ((IntOp.cmpi .eq x (BitVec.ofNat 32 b.val)).setWidth 32)
      = if x.toInt = (b.val : ℤ) then (1 : EReal) else 0 := by
  show ((((IntOp.cmpi .eq x (BitVec.ofNat 32 b.val)).setWidth 32).toInt : ℝ) : EReal) = _
  by_cases h : x.toInt = (b.val : ℤ)
  · have hx : x = BitVec.ofNat 32 b.val := (word_eq_lane_iff x b).mpr h
    have hw : (IntOp.cmpi .eq x (BitVec.ofNat 32 b.val)).setWidth 32 = 1#32 := by
      simp [IntOp.cmpi, hx]
    rw [if_pos h, hw]
    norm_num
  · have hx : ¬ x = BitVec.ofNat 32 b.val := fun e => h ((word_eq_lane_iff x b).mp e)
    have hb : (x == BitVec.ofNat 32 b.val) = false := beq_eq_false_iff_ne.mpr hx
    have hw : (IntOp.cmpi .eq x (BitVec.ofNat 32 b.val)).setWidth 32 = 0#32 := by
      show BitVec.setWidth 32 (BitVec.ofBool (x == BitVec.ofNat 32 b.val)) = 0#32
      rw [hb]
      rfl
    rw [if_neg h, hw]
    simp

/-- An [8192, 1] column of words broadcast to [8192, 8] reads, at `(r, b)`, the column at `(r, 0)`. -/
private theorem labels_apply (v : IVec S8192x1 32) (r : Fin 8192) (b : Fin 8) :
    broadcastTo S8192x8 v broadcasts_S8192x1_S8192x8 (ix2 r b) = v (ix2 r 0) := by
  refine broadcastTo_apply v broadcasts_S8192x1_S8192x8 (ix2 r b) (ix2 r 0) fun a => ?_
  match a with
  | ⟨0, _⟩ => rfl
  | ⟨1, _⟩ => rfl

/-- The lane counter along the second axis reads, at `(r, b)`, the word of `b`. -/
private theorem lane_apply (r : Fin 8192) (b : Fin 8) :
    iota .tc S8192x8 32 [1] iota_S8192x8_d1_w32 (ix2 r b) = BitVec.ofNat 32 b.val :=
  iota_single_apply .tc S8192x8 32 1 iota_S8192x8_d1_w32 (ix2 r b)

/-- The selector at `(r, b)`: one when point `r`'s index is `b`, else zero. -/
private theorem selector_apply (v1 : IVec S8192x1 32) (r : Fin 8192) (b : Fin 8) :
    (sitofp (F := Ideal) .f32 (extui 32 (cmpi .eq (broadcastTo S8192x8 (shapeCast S8192x1 v1 shapeCasts_S8192x1_S8192x1) broadcasts_S8192x1_S8192x8)
        (iota .tc S8192x8 32 [1] iota_S8192x8_d1_w32)) natLt_1_32)) (ix2 r b)
      = if (v1 (ix2 r 0)).toInt = (b.val : ℤ) then (1 : EReal) else 0 := by
  show FloatOps.sitofp (F := Ideal) .f32 ((IntOp.cmpi .eq (broadcastTo S8192x8 (shapeCast S8192x1 v1 shapeCasts_S8192x1_S8192x1) broadcasts_S8192x1_S8192x8 (ix2 r b))
      (iota .tc S8192x8 32 [1] iota_S8192x8_d1_w32 (ix2 r b))).setWidth 32) = _
  rw [lane_apply, labels_apply, shapeCast_self]
  exact onehot_word _ b

/-- The multiply kernel's store: the feature entry times the gate row the point's index selects. -/
theorem mulPay_apply (v0 : Vec Ideal S8192x256 .f32) (v1 : Vec Ideal S8192x1 .i32) (v8 : Vec Ideal S8x256 .f32) (r : Fin 8192) (c : Fin 256) :
    k1_pay1 (F := Ideal) v0 v1 v8 (ix2 r c)
      = v0 (ix2 r c) * ∑ b : Fin 8, if (v1 (ix2 r 0)).toInt = (b.val : ℤ) then v8 (ix2 b c) else 0 := by
  unfold k1_pay1
  show v0 (ix2 r c) * matmul dot_S8192x8_S8x256_S8192x256_1_0_0_1_n_n none _ _ (constant (F := Ideal) S8192x256 .f32 0x00000000#32) (ix2 r c) = _
  rw [pick_apply]
  refine congrArg (fun t => v0 (ix2 r c) * t) (Finset.sum_congr rfl fun b _ => ?_)
  rw [selector_apply, shapeCast_self, ite_mul, one_mul, zero_mul]

end Cert.KernelIdeal.HandValue

end
-- ==== Proof.Val.PoolValue.lean ====
import proofs.«431042_j2559800508872_2_alg».proof.Proof.Val.Blocks0
import proofs.«431042_j2559800508872_2_alg».proof.Proof.Val.PayPool
import proofs.«431042_j2559800508872_2_alg».proof.Proof.Val.PayGate

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-! The gate the pooling region leaves is the specification's. After tile `n` the accumulators hold the selected sums
    and counts over rows `0 … 8192 (n + 1) − 1` (induction on the tile, addition on the extended reals being
    commutative and associative); after the last tile, over all rows: a sum over tile and row within the tile is the
    sum over the rows. The gate payload applied to them is the specification's gate. -/

variable (m : (ℓ : Loc nD τ sig) → Buf (Elt Ideal) ℓ) (ρ : Dev nD → PrngReg)

/-- A sum over the rows is the sum, over the tiles, of the sums over the rows of a tile. -/
private theorem sum_rows (f : ℕ → EReal) :
    ∑ n : Fin 524288, f n.val = ∑ t : Fin 64, ∑ r : Fin 8192, f (t.val * 8192 + r.val) := by
  rw [← Fintype.sum_prod_type (f := fun x : Fin 64 × Fin 8192 => f (x.1.val * 8192 + x.2.val))]
  refine (Fintype.sum_equiv finProdFinEquiv (fun x : Fin 64 × Fin 8192 => f (x.1.val * 8192 + x.2.val))
    (fun n : Fin (64 * 8192) => f n.val) fun x => ?_).symm
  show f (x.1.val * 8192 + x.2.val) = f (finProdFinEquiv x).val
  rw [finProdFinEquiv_apply_val, Nat.mul_comm, Nat.add_comm]

/-- The index word of row `n`, read signed (zero past the last row). -/
private def rowIdx (c : Dev nD) (n : ℕ) : ℤ :=
  if h : n < 524288 then (idxArr m c (ix1 ⟨n, h⟩)).toInt else 0

/-- The feature entry of row `n` in column `cc` (zero past the last row). -/
private def rowFeat (c : Dev nD) (cc : Fin 256) (n : ℕ) : EReal :=
  if h : n < 524288 then featArr m c (ix2 ⟨n, h⟩ cc) else 0

private theorem rowIdx_of_lt (c : Dev nD) (n : ℕ) (h : n < 524288) :
    rowIdx m c n = (idxArr m c (ix1 ⟨n, h⟩)).toInt := dif_pos h

private theorem rowFeat_of_lt (c : Dev nD) (cc : Fin 256) (n : ℕ) (h : n < 524288) :
    rowFeat m c cc n = featArr m c (ix2 ⟨n, h⟩ cc) := dif_pos h

/-- Row `n`'s contribution to batch `b`'s sum in column `cc`, and to its count. -/
private def selFeat (c : Dev nD) (b : Fin 8) (cc : Fin 256) (n : ℕ) : EReal :=
  if rowIdx m c n = (b.val : ℤ) then rowFeat m c cc n else 0
private def selOne (c : Dev nD) (b : Fin 8) (n : ℕ) : EReal :=
  if rowIdx m c n = (b.val : ℤ) then (1 : EReal) else 0

/-- A tile's selected feature entries are the rows' contributions. -/
private theorem tile_feat (c : Dev nD) (k : ℕ) (hk : k < cfg0.N) (b : Fin 8) (cc : Fin 256) :
    (∑ r : Fin 8192, if (idxBlk m ρ c ⟨k, hk⟩ (ix2 r 0)).toInt = (b.val : ℤ) then featBlk m ρ c ⟨k, hk⟩ (ix2 r cc) else 0)
      = ∑ r : Fin 8192, selFeat m c b cc (k * 8192 + r.val) := by
  refine Finset.sum_congr rfl fun r _ => ?_
  have h : k * 8192 + r.val < 524288 := tile_lt ⟨k, hk⟩ r
  rw [idxBlk_apply, featBlk_apply, selFeat, rowIdx_of_lt m c _ h, rowFeat_of_lt m c cc _ h]

/-- A tile's selected points are the rows' contributions to the count. -/
private theorem tile_one (c : Dev nD) (k : ℕ) (hk : k < cfg0.N) (b : Fin 8) :
    (∑ r : Fin 8192, if (idxBlk m ρ c ⟨k, hk⟩ (ix2 r 0)).toInt = (b.val : ℤ) then (1 : EReal) else 0)
      = ∑ r : Fin 8192, selOne m c b (k * 8192 + r.val) := by
  refine Finset.sum_congr rfl fun r _ => ?_
  have h : k * 8192 + r.val < 524288 := tile_lt ⟨k, hk⟩ r
  rw [idxBlk_apply, selOne, rowIdx_of_lt m c _ h]

/-- The accumulators after the first tile and after a later one, over the blocks at their literal types. -/
private theorem acc_zero_1 (c : Dev nD) (hn : 0 < cfg0.N) :
    (scAt0 (F := Ideal) (V1 m ρ) c 0 hn).1
      = k0_pay4 (featBlk m ρ c ⟨0, hn⟩) (idxBlk m ρ c ⟨0, hn⟩) (k0_pay1 (F := Ideal)) := rfl

private theorem acc_zero_2 (c : Dev nD) (hn : 0 < cfg0.N) :
    (scAt0 (F := Ideal) (V1 m ρ) c 0 hn).2 = k0_pay5 (idxBlk m ρ c ⟨0, hn⟩) (k0_pay2 (F := Ideal)) := rfl

private theorem acc_succ_1 (c : Dev nD) (n : ℕ) (hn : n + 1 < cfg0.N) :
    (scAt0 (F := Ideal) (V1 m ρ) c (n + 1) hn).1
      = k0_pay4 (featBlk m ρ c ⟨n + 1, hn⟩) (idxBlk m ρ c ⟨n + 1, hn⟩)
          (scAt0 (F := Ideal) (V1 m ρ) c n (Nat.lt_of_succ_lt hn)).1 := rfl

private theorem acc_succ_2 (c : Dev nD) (n : ℕ) (hn : n + 1 < cfg0.N) :
    (scAt0 (F := Ideal) (V1 m ρ) c (n + 1) hn).2
      = k0_pay5 (idxBlk m ρ c ⟨n + 1, hn⟩) (scAt0 (F := Ideal) (V1 m ρ) c n (Nat.lt_of_succ_lt hn)).2 := rfl

/-- After tile `n` the sums hold the contributions of the rows of tiles `0 … n`. -/
private theorem sums_at (c : Dev nD) (b : Fin 8) (cc : Fin 256) : ∀ (n : ℕ) (hn : n < cfg0.N),
    (scAt0 (F := Ideal) (V1 m ρ) c n hn).1 (ix2 b cc)
      = ∑ t ∈ Finset.range (n + 1), ∑ r : Fin 8192, selFeat m c b cc (t * 8192 + r.val)
  | 0, hn => by
    rw [acc_zero_1, pay4_apply, pay1_apply, zero_add, tile_feat, Finset.sum_range_one]
  | n + 1, hn => by
    rw [acc_succ_1, pay4_apply, sums_at c b cc n (Nat.lt_of_succ_lt hn), tile_feat, Finset.sum_range_succ _ (n + 1)]

/-- After tile `n` the counts hold the contributions of the rows of tiles `0 … n`. -/
private theorem counts_at (c : Dev nD) (b : Fin 8) : ∀ (n : ℕ) (hn : n < cfg0.N),
    (scAt0 (F := Ideal) (V1 m ρ) c n hn).2 (ix2 b 0)
      = ∑ t ∈ Finset.range (n + 1), ∑ r : Fin 8192, selOne m c b (t * 8192 + r.val)
  | 0, hn => by
    rw [acc_zero_2, pay5_apply, pay2_apply, zero_add, tile_one, Finset.sum_range_one]
  | n + 1, hn => by
    rw [acc_succ_2, pay5_apply, counts_at c b n (Nat.lt_of_succ_lt hn), tile_one, Finset.sum_range_succ _ (n + 1)]

/-- After the last tile the sums are the specification's. -/
private theorem sums_last (c : Dev nD) (b : Fin 8) (cc : Fin 256) :
    (scAt0 (F := Ideal) (V1 m ρ) c 63 lastLt0).1 (ix2 b cc) = Cert.Spec.sums (featArr m c) (idxArr m c) b cc := by
  rw [sums_at m ρ c b cc 63 lastLt0, show (63 + 1 : ℕ) = 64 from rfl,
    Finset.sum_range (fun t => ∑ r : Fin 8192, selFeat m c b cc (t * 8192 + r.val)), ← sum_rows (selFeat m c b cc)]
  unfold Cert.Spec.sums
  refine Finset.sum_congr rfl fun n _ => ?_
  rw [selFeat, rowIdx_of_lt m c n.val n.isLt, rowFeat_of_lt m c cc n.val n.isLt]

/-- After the last tile the counts are the specification's. -/
private theorem counts_last (c : Dev nD) (b : Fin 8) :
    (scAt0 (F := Ideal) (V1 m ρ) c 63 lastLt0).2 (ix2 b 0) = Cert.Spec.counts (idxArr m c) b := by
  rw [counts_at m ρ c b 63 lastLt0, show (63 + 1 : ℕ) = 64 from rfl,
    Finset.sum_range (fun t => ∑ r : Fin 8192, selOne m c b (t * 8192 + r.val)), ← sum_rows (selOne m c b)]
  unfold Cert.Spec.counts
  refine Finset.sum_congr rfl fun n _ => ?_
  rw [selOne, rowIdx_of_lt m c n.val n.isLt]

/-- The gate array the pooling region leaves, index by index. -/
theorem gate0_spec (c : Dev nD) (b : Fin 8) (cc : Fin 256) :
    gate0 (F := Ideal) (V1 m ρ) c (ix2 b cc)
      = Cert.Spec.gate (featArr m c) (w1Arr m c) (w2Arr m c) (idxArr m c) b cc := by
  show k0_pay6 (F := Ideal) (scAt0 (F := Ideal) (V1 m ρ) c 63 lastLt0).1 (scAt0 (F := Ideal) (V1 m ρ) c 63 lastLt0).2
      (w1Blk m ρ c ⟨63, lastLt0⟩) (w2Blk m ρ c ⟨63, lastLt0⟩) (ix2 b cc) = _
  rw [pay6_apply, w1Blk_eq, w2Blk_eq, counts_last]
  unfold Cert.Spec.gate Cert.Spec.logit Cert.Spec.hidden Cert.Spec.pooled
  simp only [sums_last]

end Cert.KernelIdeal.HandValue

end
-- ==== Proof.Val.MulValue.lean ====
import proofs.«431042_j2559800508872_2_alg».proof.Proof.Val.PoolValue

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-! The result array is the specification's. Tile `t` of the result is what point `t` of the multiply region writes
    back: the feature tile times, per point, the gate row its index selects; the region finds the features and the index
    column as launched and the gate as the pooling region left it; the 64 tiles cover the array. -/

variable (m : (ℓ : Loc nD τ sig) → Buf (Elt Ideal) ℓ) (ρ : Dev nD → PrngReg)

/-- The specification's result over the launch arrays of core `c`. -/
abbrev specOut (c : Dev nD) : Vec Ideal S524288x256 .f32 :=
  Cert.Spec.out (featArr m c) (w1Arr m c) (w2Arr m c) (idxArr m c)

/-! ## The multiply region's input blocks, read off the launch arrays -/

/-- The multiply region's input blocks at point `t`, at their literal types: the feature tile, the index tile, the gate. -/
private abbrev fBlk1 (c : Dev nD) (t : Fin cfg1.N) : Vec Ideal S8192x256 .f32 := iblk1 (V2 m ρ) c 0 t
private abbrev iBlk1 (c : Dev nD) (t : Fin cfg1.N) : Vec Ideal S8192x1 .i32 := iblk1 (V2 m ρ) c 1 t
private abbrev gBlk1 (c : Dev nD) (t : Fin cfg1.N) : Vec Ideal S8x256 .f32 := iblk1 (V2 m ρ) c 2 t

/-- Row `r` of tile `t` is a row of the array: 64 tiles of 8192 rows. -/
private theorem tile_lt1 (t : Fin cfg1.N) (r : Fin 8192) : t.val * 8192 + r.val < 524288 := by
  have : t.val < 64 := lt_of_lt_of_eq t.isLt (show cfg1.N = 64 from N_1)
  omega

/-- The block indices of the four windows at point `t`: the feature, index and result tiles are tile `t` of their
    arrays (row block `t`, column block 0); the gate's block is always block (0, 0). -/
private theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The index column the regions read is the index vector reshaped: the one host operation before the regions. -/
private theorem idxCol_eq (c : Dev nD) :
    (V1 m ρ c main_v0 : S524288x1.Idx → Elt Ideal .i32)
      = shapeCast S524288x1 (idxArr m c) shapeCasts_S524288_S524288x1 := by
  dsimp only [V1, W1, hostOps0]
  after_results
  rfl

/-- Entry `(r, cc)` of feature tile `t` is entry `(8192 t + r, cc)` of the feature array as launched. -/
private theorem fBlk1_apply (c : Dev nD) (t : Fin cfg1.N) (r : Fin 8192) (cc : Fin 256) :
    fBlk1 m ρ c t (ix2 r cc) = featArr m c (ix2 ⟨t.val * 8192 + r.val, tile_lt1 t r⟩ cc) := by
  obtain ⟨e0, e1, -⟩ := blockIndex1 t
  show V2 m ρ c main_arg0 (((cfg1.win 0).blk t).view.emb (ix2 r cc)) = featArr m c _
  rw [V2_main_arg0]
  show featArr m c _ = featArr m c _
  congr 1
  funext a; apply Fin.ext
  match a with
  | ⟨0, _⟩ => show win1_0.index t (0 : Fin 2) * 8192 + 1 * r.val = t.val * 8192 + r.val; omega
  | ⟨1, _⟩ => show win1_0.index t (1 : Fin 2) * 256 + 1 * cc.val = cc.val; omega

/-- Row `r` of index tile `t` is entry `8192 t + r` of the index vector as launched: the column is the vector
    reshaped, and position `(n, 0)` of the column is position `n` of the vector. -/
private theorem iBlk1_apply (c : Dev nD) (t : Fin cfg1.N) (r : Fin 8192) :
    iBlk1 m ρ c t (ix2 r 0) = idxArr m c (ix1 ⟨t.val * 8192 + r.val, tile_lt1 t r⟩) := by
  obtain ⟨-, -, e0, e1, -⟩ := blockIndex1 t
  show V2 m ρ c main_v0 (((cfg1.win 1).blk t).view.emb (ix2 r 0)) = idxArr m c _
  rw [V2_main_v0]
  show (V1 m ρ c main_v0 : S524288x1.Idx → Elt Ideal .i32) _ = _
  rw [idxCol_eq]
  refine shapeCast_apply _ _ _ _ ?_
  rw [Shape.rowMajor_val_one, Shape.rowMajor_val_two]
  show t.val * 8192 + r.val
    = (win1_1.index t (0 : Fin 2) * 8192 + 1 * r.val) * 1 + (win1_1.index t (1 : Fin 2) * 1 + 1 * 0)
  omega

/-- The gate block is the whole gate array, which the pooling region left at the specification's gate. -/
private theorem gBlk1_apply (c : Dev nD) (t : Fin cfg1.N) (b : Fin 8) (cc : Fin 256) :
    gBlk1 m ρ c t (ix2 b cc)
      = Cert.Spec.gate (featArr m c) (w1Arr m c) (w2Arr m c) (idxArr m c) b cc := by
  obtain ⟨-, -, -, -, e0, e1, -⟩ := blockIndex1 t
  show V2 m ρ c main_v1 (((cfg1.win 2).blk t).view.emb (ix2 b cc)) = _
  rw [V2_main_v1, ← gate0_spec m ρ c b cc]
  congr 1
  funext a; apply Fin.ext
  match a with
  | ⟨0, _⟩ => show win1_2.index t (0 : Fin 2) * 8 + 1 * b.val = b.val; omega
  | ⟨1, _⟩ => show win1_2.index t (1 : Fin 2) * 256 + 1 * cc.val = cc.val; omega

/-! ## What each point writes back, and the cover -/

/-- What point `t` writes back is tile `t` of the specification's result: at `(r, cc)` the feature entry
    `(8192 t + r, cc)` times the sum over the eight batches of the gate rows selected by index `8192 t + r`, which is
    the specification's result at `(8192 t + r, cc)`, the place of `(r, cc)` of result tile `t` in the array. -/
private theorem flushed1_3 (c : Dev nD) (t : Fin cfg1.N) :
    (dat1 (F := Ideal) (V2 m ρ) c).flushed 3 t = ((cfg1.win 3).blk t).view.read (Elt Ideal) (specOut m c) := by
  obtain ⟨-, -, -, -, -, -, e0, e1⟩ := blockIndex1 t
  show (cfg1.win 3).cut (grid1.coords t) ((dat1 (F := Ideal) (V2 m ρ) c).after 3 t) = _
  rw [after1_3]
  refine funext fun (y : S8192x256.Idx) => ?_
  obtain ⟨r, cc, rfl⟩ : ∃ (r : Fin 8192) (cc : Fin 256), y = ix2 r cc := ⟨y 0, y 1, eq_ix2 y⟩
  show k1_pay1 (F := Ideal) (fBlk1 m ρ c t) (iBlk1 m ρ c t) (gBlk1 m ρ c t) (ix2 r cc)
    = specOut m c (((cfg1.win 3).blk t).view.emb (ix2 r cc))
  rw [mulPay_apply (fBlk1 m ρ c t) (iBlk1 m ρ c t) (gBlk1 m ρ c t) r cc, fBlk1_apply m ρ c t r cc,
    iBlk1_apply m ρ c t r]
  simp only [gBlk1_apply m ρ c t]
  have hi : ((cfg1.win 3).blk t).view.emb (ix2 r cc)
      = (ix2 ⟨t.val * 8192 + r.val, tile_lt1 t r⟩ cc : S524288x256.Idx) := by
    funext a; apply Fin.ext
    match a with
    | ⟨0, _⟩ => show win1_3.index t (0 : Fin 2) * 8192 + 1 * r.val = t.val * 8192 + r.val; omega
    | ⟨1, _⟩ => show win1_3.index t (1 : Fin 2) * 256 + 1 * cc.val = cc.val; omega
  rw [hi]
  rfl

/-- The result array after the multiply region. -/
theorem out_final (c : Dev nD) : (dat1 (F := Ideal) (V2 m ρ) c).arrAt 3 cfg1.N = specOut m c :=
  -- every point writes its tile of the specification's result, and row `n` lies in tile `n / 8192`
  (dat1 (F := Ideal) (V2 m ρ) c).arrAt_eq_of_cover 3 (specOut m c) (fun t _ => flushed1_3 m ρ c t) fun i => by
    have h0 : (i 0 : Nat) < 524288 := (i 0).isLt
    have h1 : (i 1 : Nat) < 256 := (i 1).isLt
    obtain ⟨t, ht⟩ : ∃ t : Fin cfg1.N, t.val = (i 0 : Nat) / 8192 :=
      ⟨⟨(i 0 : Nat) / 8192, lt_of_lt_of_eq (by omega) (show cfg1.N = 64 from N_1).symm⟩, rfl⟩
    obtain ⟨-, -, -, -, -, -, e0, e1⟩ := blockIndex1 t
    refine ⟨t, flush1_3 t, ?_⟩
    show i ∈ ((View.whole main_v2).slice (win1_3.rect t)).set
    rw [View.set_slice_whole, Rect.mem_set_unit]
    intro a
    match a with
    | ⟨0, _⟩ =>
      show win1_3.index t (0 : Fin 2) * 8192 ≤ (i 0 : Nat)
        ∧ (i 0 : Nat) < win1_3.index t (0 : Fin 2) * 8192 + 8192
      omega
    | ⟨1, _⟩ =>
      show win1_3.index t (1 : Fin 2) * 256 ≤ (i 1 : Nat)
        ∧ (i 1 : Nat) < win1_3.index t (1 : Fin 2) * 256 + 256
      omega

/-- Every weakly fair execution of the idealized kernel program terminates with the result array at the
    specification's value of the launch arrays, the arguments unchanged. -/
theorem run_value : θ_run defs (onTc (τ := τ) (main (F := Ideal))) ⟨m, fun _ => 0, ρ⟩ (fun r => ∀ c : Dev nD,
      r.2.mem ((c.tc : Thread nD τ).loc main_v2) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans ((W3_main_v2 m ρ c).trans (out_final m ρ c)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.HandValue

end
-- ==== Proof.Val.RefScatter.lean ====
import proofs.«431042_j2559800508872_2_alg».proof.Proof.Gen.ReferenceIdeal.Run
import proofs.«431042_j2559800508872_2_alg».proof.Proof.Gen.ReferenceIdeal.Read
import proofs.«431042_j2559800508872_2_alg».proof.Proof.Val.Spec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! The reference's two segment sums, read at an index. An accumulating scatter into zeros holds, at each slot, the
    sum of the updates whose index lands on it: update `(n, c)` of the features lands on `(b, c)` exactly when point
    `n`'s index word, read signed, is `b` (an index outside the eight batches lands nowhere); update `n` of the ones
    lands on `b` under the same condition. -/

/-- An update lands on operand index `i` exactly when, on every axis, its start plus its window coordinate is
    `i`'s coordinate (which is then inside the operand). -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      rw [← e']
      exact (Int.toNat_of_nonneg (h a).1).symm
    · intro e
      refine congrArg some (funext fun a => Fin.ext ?_)
      show (d.start j idx a + d.window j a).toNat = (i a).val
      rw [e a]; rfl
  · rw [dif_neg h]
    constructor
    · intro e; exact absurd e (by simp)
    · intro e
      refine absurd (fun a => ?_) h
      rw [e a]
      exact ⟨Int.natCast_nonneg _, by exact_mod_cast (i a).isLt⟩

/-! The first scatter: operand `[8, 256]`, indices `[524288, 1]`, updates `[524288, 256]`. -/

private theorem start2_0 (x3 : (⟨S524288, .i32⟩ : BufTy).Contents (Elt Ideal)) (n : Fin 524288) (c' : Fin 256) :
    scatter_S8x256_S524288x1_S524288x256_1_0_0_1.start (ix2 n c') (val_main_v1 (F := Ideal) x3) 0
      = (x3 (ix1 n)).toInt := by
  unfold ScatterDims.start
  rw [dif_pos (show (0 : Fin S8x256.rank) ∈ scatter_S8x256_S524288x1_S524288x256_1_0_0_1.scatterDimsToOperandDims from
    List.mem_singleton.mpr rfl)]
  rw [val_main_v1_apply]
  congr 2
  funext a
  match a with
  | ⟨0, _⟩ => rfl

private theorem start2_1 (x3 : (⟨S524288, .i32⟩ : BufTy).Contents (Elt Ideal)) (n : Fin 524288) (c' : Fin 256) :
    scatter_S8x256_S524288x1_S524288x256_1_0_0_1.start (ix2 n c') (val_main_v1 (F := Ideal) x3) 1 = 0 := by
  unfold ScatterDims.start
  rw [dif_neg (show ¬(1 : Fin S8x256.rank) ∈ scatter_S8x256_S524288x1_S524288x256_1_0_0_1.scatterDimsToOperandDims by
    decide)]

private theorem window2_0 (n : Fin 524288) (c' : Fin 256) :
    scatter_S8x256_S524288x1_S524288x256_1_0_0_1.window (ix2 n c') 0 = 0 := by
  unfold ScatterDims.window
  rw [dif_neg (show ¬(0 : Fin S8x256.rank) ∈ scatter_S8x256_S524288x1_S524288x256_1_0_0_1.sKept by decide)]

private theorem window2_1 (n : Fin 524288) (c' : Fin 256) :
    scatter_S8x256_S524288x1_S524288x256_1_0_0_1.window (ix2 n c') 1 = c'.val := by
  unfold ScatterDims.window
  rw [dif_pos (show (1 : Fin S8x256.rank) ∈ scatter_S8x256_S524288x1_S524288x256_1_0_0_1.sKept by decide)]
  rfl

/-- Update `(n, c')` of the features lands on `(b, c)` exactly when point `n`'s index word, read signed, is `b`
    and `c' = c`. -/
private theorem lands2_iff (x3 : (⟨S524288, .i32⟩ : BufTy).Contents (Elt Ideal)) (n : Fin 524288) (c' : Fin 256)
    (b : Fin 8) (c : Fin 256) :
    scatter_S8x256_S524288x1_S524288x256_1_0_0_1.resultIdx? (ix2 n c') (val_main_v1 (F := Ideal) x3) = some (ix2 b c)
      ↔ (x3 (ix1 n)).toInt = (b.val : ℤ) ∧ c' = c := by
  rw [resultIdx?_eq_some_iff]
  constructor
  · intro h
    have h0 := h 0
    have h1 := h 1
    rw [start2_0, window2_0] at h0
    rw [start2_1, window2_1] at h1
    refine ⟨by simpa using h0, Fin.ext ?_⟩
    have : ((c'.val : ℤ)) = (c.val : ℤ) := by simpa using h1
    exact_mod_cast this
  · rintro ⟨h0, rfl⟩ a
    match a with
    | ⟨0, _⟩ =>
      show scatter_S8x256_S524288x1_S524288x256_1_0_0_1.start (ix2 n c') (val_main_v1 (F := Ideal) x3) 0
        + (scatter_S8x256_S524288x1_S524288x256_1_0_0_1.window (ix2 n c') 0 : ℤ) = (b.val : ℤ)
      rw [start2_0, window2_0, h0]; simp
    | ⟨1, _⟩ =>
      show scatter_S8x256_S524288x1_S524288x256_1_0_0_1.start (ix2 n c') (val_main_v1 (F := Ideal) x3) 1
        + (scatter_S8x256_S524288x1_S524288x256_1_0_0_1.window (ix2 n c') 1 : ℤ) = (c'.val : ℤ)
      rw [start2_1, window2_1]; simp

theorem sums_eq (x0 : (⟨S524288x256, .f32⟩ : BufTy).Contents (Elt Ideal)) (x3 : (⟨S524288, .i32⟩ : BufTy).Contents (Elt Ideal))
    (b : Fin 8) (c : Fin 256) :
    val_main_v2 (F := Ideal) x0 x3 (ix2 b c) = Cert.Spec.sums x0 x3 b c := by
  show val_main_v0 (F := Ideal) (ix2 b c)
      + ∑ j ∈ Finset.univ.filter (fun j => scatter_S8x256_S524288x1_S524288x256_1_0_0_1.resultIdx? j
          (val_main_v1 (F := Ideal) x3) = some (ix2 b c)), x0 j = _
  rw [val_main_v0_apply, val_main_cst_apply, Ideal.ofBits_def, Ideal.ofBits_zero_f32, zero_add, Finset.sum_filter,
    sum_idx2]
  unfold Cert.Spec.sums
  refine Finset.sum_congr rfl fun n _ => ?_
  by_cases hs : (x3 (ix1 n)).toInt = (b.val : ℤ)
  · rw [if_pos hs]
    rw [Finset.sum_eq_single c]
    · rw [if_pos ((lands2_iff x3 n c b c).2 ⟨hs, rfl⟩)]
    · intro c' _ hc
      rw [if_neg (fun h => hc ((lands2_iff x3 n c' b c).1 h).2)]
    · intro h; exact absurd (Finset.mem_univ c) h
  · rw [if_neg hs]
    refine Finset.sum_eq_zero fun c' _ => ?_
    rw [if_neg (fun h => hs ((lands2_iff x3 n c' b c).1 h).1)]

/-! The second scatter: operand `[8]`, indices `[524288, 1]`, updates `[524288]`. -/

private theorem start1_0 (x3 : (⟨S524288, .i32⟩ : BufTy).Contents (Elt Ideal)) (n : Fin 524288) :
    scatter_S8_S524288x1_S524288_n_0_0_1.start (ix1 n) (val_main_v5 (F := Ideal) x3) 0 = (x3 (ix1 n)).toInt := by
  unfold ScatterDims.start
  rw [dif_pos (show (0 : Fin S8.rank) ∈ scatter_S8_S524288x1_S524288_n_0_0_1.scatterDimsToOperandDims from
    List.mem_singleton.mpr rfl)]
  rw [val_main_v5_apply]
  congr 2
  funext a
  match a with
  | ⟨0, _⟩ => rfl

private theorem window1_0 (n : Fin 524288) : scatter_S8_S524288x1_S524288_n_0_0_1.window (ix1 n) 0 = 0 := by
  unfold ScatterDims.window
  rw [dif_neg (show ¬(0 : Fin S8.rank) ∈ scatter_S8_S524288x1_S524288_n_0_0_1.sKept by decide)]

/-- Update `n` of the ones lands on `b` exactly when point `n`'s index word, read signed, is `b`. -/
private theorem lands1_iff (x3 : (⟨S524288, .i32⟩ : BufTy).Contents (Elt Ideal)) (n : Fin 524288) (b : Fin 8) :
    scatter_S8_S524288x1_S524288_n_0_0_1.resultIdx? (ix1 n) (val_main_v5 (F := Ideal) x3) = some (ix1 b)
      ↔ (x3 (ix1 n)).toInt = (b.val : ℤ) := by
  rw [resultIdx?_eq_some_iff]
  constructor
  · intro h
    have h0 := h 0
    rw [start1_0, window1_0] at h0
    simpa using h0
  · intro h0 a
    match a with
    | ⟨0, _⟩ =>
      show scatter_S8_S524288x1_S524288_n_0_0_1.start (ix1 n) (val_main_v5 (F := Ideal) x3) 0
        + (scatter_S8_S524288x1_S524288_n_0_0_1.window (ix1 n) 0 : ℤ) = (b.val : ℤ)
      rw [start1_0, window1_0, h0]; simp

theorem counts_eq (x3 : (⟨S524288, .i32⟩ : BufTy).Contents (Elt Ideal)) (b : Fin 8) :
    val_main_v6 (F := Ideal) x3 (ix1 b) = Cert.Spec.counts x3 b := by
  show val_main_v4 (F := Ideal) (ix1 b)
      + ∑ j ∈ Finset.univ.filter (fun j => scatter_S8_S524288x1_S524288_n_0_0_1.resultIdx? j
          (val_main_v5 (F := Ideal) x3) = some (ix1 b)), val_main_v3 (F := Ideal) j = _
  rw [val_main_v4_apply, val_main_cst_1_apply, Ideal.ofBits_def, Ideal.ofBits_zero_f32, zero_add, Finset.sum_filter,
    ← Equiv.sum_comp (idxEquiv1 (n := 524288)).symm]
  unfold Cert.Spec.counts
  refine Finset.sum_congr rfl fun n _ => ?_
  show (if scatter_S8_S524288x1_S524288_n_0_0_1.resultIdx? (ix1 n) (val_main_v5 (F := Ideal) x3) = some (ix1 b)
      then val_main_v3 (F := Ideal) (ix1 n) else 0) = _
  rw [val_main_v3_apply, val_main_cst_0_apply, Ideal.ofBits_def, Ideal.ofBits_one_f32]
  by_cases hs : (x3 (ix1 n)).toInt = (b.val : ℤ)
  · rw [if_pos hs, if_pos ((lands1_iff x3 n b).2 hs)]
  · rw [if_neg hs, if_neg (fun h => hs ((lands1_iff x3 n b).1 h))]

end Cert.ReferenceIdeal.RefValue

end
-- ==== Proof.Val.Ref.lean ====
import proofs.«431042_j2559800508872_2_alg».proof.Proof.Val.RefScatter
import Idealize.ShloMosaic.Lib.IdealHost

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! The reference's result is the specification's, where every index word names a batch: mean, hidden layer, logit
    and gate stage by stage from the two segment sums; the gather reads the gate row at the point's index, wrapped
    if negative and clamped to the eight rows, which in range is the row of the point's batch: the one summand the
    specification's sum over the batches keeps. -/

/-- The mean row: the segment sum over the count floored at one, the count read through the two broadcasts. -/
private theorem pooled_eq (x0 : (⟨S524288x256, .f32⟩ : BufTy).Contents (Elt Ideal)) (x3 : (⟨S524288, .i32⟩ : BufTy).Contents (Elt Ideal))
    (b : Fin 8) (c : Fin 256) :
    val_main_v11 (F := Ideal) x0 x3 (ix2 b c) = Cert.Spec.pooled x0 x3 b c := by
  have e : idx_main_v9 (idx_main_v10 (ix2 b c)) = ix1 b := funext fun a => Fin.ext (by match a with | ⟨0, _⟩ => rfl)
  rw [val_main_v11_apply, val_main_v10_apply, val_main_v9_apply, val_main_v8_apply, val_main_v7_apply,
    val_main_cst_2_apply, e, sums_eq, counts_eq]
  simp only [Ideal.hostDivf_def, Ideal.maximumf_def, Ideal.ofBits_def, Ideal.ofBits_one_f32]
  rfl

/-- The hidden layer: the mean row times the first weight matrix as a sum over the 256 columns, floored at zero. -/
private theorem hidden_eq (x0 : (⟨S524288x256, .f32⟩ : BufTy).Contents (Elt Ideal)) (x1 : (⟨S256x16, .f32⟩ : BufTy).Contents (Elt Ideal))
    (x3 : (⟨S524288, .i32⟩ : BufTy).Contents (Elt Ideal)) (b : Fin 8) (j : Fin 16) :
    val_main_v13 (F := Ideal) x0 x1 x3 (ix2 b j) = Cert.Spec.hidden x0 x1 x3 b j := by
  have el : ∀ k : Fin 256, lidx_main_v12 (ix2 b j) k = ix2 b k := fun k =>
    funext fun a => Fin.ext (by match a with | ⟨0, _⟩ => rfl | ⟨1, _⟩ => rfl)
  have er : ∀ k : Fin 256, ridx_main_v12 (ix2 b j) k = ix2 k j := fun k =>
    funext fun a => Fin.ext (by match a with | ⟨0, _⟩ => rfl | ⟨1, _⟩ => rfl)
  rw [val_main_v13_apply, val_main_v12_apply, val_main_call0_v0_apply, val_main_call0_cst_apply]
  simp only [el, er, pooled_eq, Ideal.maximumf_def, Ideal.ofBits_def, Ideal.ofBits_zero_f32]
  rfl

/-- The logit: the hidden row times the second weight matrix as a sum over the 16 hidden units. -/
private theorem logit_eq (x0 : (⟨S524288x256, .f32⟩ : BufTy).Contents (Elt Ideal)) (x1 : (⟨S256x16, .f32⟩ : BufTy).Contents (Elt Ideal))
    (x2 : (⟨S16x256, .f32⟩ : BufTy).Contents (Elt Ideal)) (x3 : (⟨S524288, .i32⟩ : BufTy).Contents (Elt Ideal)) (b : Fin 8) (c : Fin 256) :
    val_main_v14 (F := Ideal) x0 x1 x2 x3 (ix2 b c) = Cert.Spec.logit x0 x1 x2 x3 b c := by
  have el : ∀ k : Fin 16, lidx_main_v14 (ix2 b c) k = ix2 b k := fun k =>
    funext fun a => Fin.ext (by match a with | ⟨0, _⟩ => rfl | ⟨1, _⟩ => rfl)
  have er : ∀ k : Fin 16, ridx_main_v14 (ix2 b c) k = ix2 k c := fun k =>
    funext fun a => Fin.ext (by match a with | ⟨0, _⟩ => rfl | ⟨1, _⟩ => rfl)
  rw [val_main_v14_apply]
  simp only [el, er, hidden_eq]
  rfl

/-- The gate: the reference writes the logistic out as one over one plus the exponential of the negated logit, which
    is the logistic function's definition on the extended reals. No range condition is needed up to here. -/
theorem gate_eq (x0 : (⟨S524288x256, .f32⟩ : BufTy).Contents (Elt Ideal)) (x1 : (⟨S256x16, .f32⟩ : BufTy).Contents (Elt Ideal))
    (x2 : (⟨S16x256, .f32⟩ : BufTy).Contents (Elt Ideal)) (x3 : (⟨S524288, .i32⟩ : BufTy).Contents (Elt Ideal)) (b : Fin 8) (c : Fin 256) :
    val_main_v20 (F := Ideal) x0 x1 x2 x3 (ix2 b c) = Cert.Spec.gate x0 x1 x2 x3 b c := by
  rw [val_main_v20_apply, val_main_v19_apply, val_main_cst_4_apply, val_main_v18_apply, val_main_v17_apply,
    val_main_cst_3_apply, val_main_v16_apply, val_main_v15_apply, logit_eq]
  simp only [Ideal.hostDivf_def, Ideal.addf_def, Ideal.hostUnary_exp_def, Ideal.hostNegf_def, Ideal.negf_def,
    Ideal.ofBits_def, Ideal.ofBits_one_f32]
  rfl

/-- The gather read at a point: the operand's row at the point's start index word, read signed and clamped to the
    eight rows, at the same column. The row axis is collapsed and indexed, the column axis is the one offset axis. -/
private theorem gather_apply {α : Type} (x : S8x256.Idx → α) (idx : IVec S524288x1 32) (n : Fin 524288) (c : Fin 256)
    (r : Fin 8) (hrow : min (idx (ix2 n 0)).toInt.toNat 7 = r.val) :
    Host.gather gather_S8x256_S524288x1_S524288x256_1_0_n_n_0_1_1256 x idx (ix2 n c) = x (ix2 r c) := by
  unfold Host.gather
  congr 1
  funext a
  refine Fin.ext ?_
  match a with
  | ⟨0, _⟩ =>
    show gather_S8x256_S524288x1_S524288x256_1_0_n_n_0_1_1256.start (ix2 n c) idx 0
      + gather_S8x256_S524288x1_S524288x256_1_0_n_n_0_1_1256.batchCoord (ix2 n c) 0
      + gather_S8x256_S524288x1_S524288x256_1_0_n_n_0_1_1256.offCoord (ix2 n c) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x256.rank) ∈ gather_S8x256_S524288x1_S524288x256_1_0_n_n_0_1_1256.startIndexMap from List.mem_singleton.mpr rfl)]
    have hsi : gather_S8x256_S524288x1_S524288x256_1_0_n_n_0_1_1256.siIdx (ix2 n c)
        ⟨List.idxOf (0 : Fin S8x256.rank) gather_S8x256_S524288x1_S524288x256_1_0_n_n_0_1_1256.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    exact hrow
  | ⟨1, _⟩ =>
    show gather_S8x256_S524288x1_S524288x256_1_0_n_n_0_1_1256.start (ix2 n c) idx 1
      + gather_S8x256_S524288x1_S524288x256_1_0_n_n_0_1_1256.batchCoord (ix2 n c) 1
      + gather_S8x256_S524288x1_S524288x256_1_0_n_n_0_1_1256.offCoord (ix2 n c) 1 = c.val
    rw [GatherDims.batchCoord_eq_zero _ _ _ List.not_mem_nil]
    unfold GatherDims.start GatherDims.offCoord
    rw [dif_neg (show ¬(1 : Fin S8x256.rank) ∈ gather_S8x256_S524288x1_S524288x256_1_0_n_n_0_1_1256.startIndexMap by decide),
      dif_pos (show (1 : Fin S8x256.rank) ∈ gather_S8x256_S524288x1_S524288x256_1_0_n_n_0_1_1256.sKept by decide)]
    simp only [Nat.add_zero, Nat.zero_add]
    rfl

/-- The negative-index wrap leaves an index word that is not negative as it is: the signed comparison with zero fails. -/
private theorem wrap_eq (x3 : (⟨S524288, .i32⟩ : BufTy).Contents (Elt Ideal)) (n : Fin 524288)
    (h0 : 0 ≤ (x3 (ix1 n)).toInt) :
    val_main_v26 (F := Ideal) x3 (ix2 n 0) = x3 (ix1 n) := by
  have e : idx_main_v26 (ix2 n (0 : Fin 1)) = ix1 n := funext fun a => Fin.ext (by match a with | ⟨0, _⟩ => rfl)
  rw [val_main_v26_apply, e, val_main_v25_apply, val_main_v22_apply, val_main_v21_apply, val_main_c_apply]
  have hs : (x3 (ix1 n)).slt 0#32 = false := by
    rw [BitVec.slt]
    exact decide_eq_false (by simpa using h0)
  have hc : IntOp.cmpi .slt (x3 (ix1 n)) 0#32 = 0#1 := by
    show BitVec.ofBool ((x3 (ix1 n)).slt 0#32) = 0#1
    rw [hs]; rfl
  rw [hc, select_zero]

/-- In range the clamped row is the index word itself, so the gathered gate row is the batch's, and the specification's
    sum over the eight batches keeps exactly that summand. -/
theorem ref_value (x0 : (⟨S524288x256, .f32⟩ : BufTy).Contents (Elt Ideal)) (x1 : (⟨S256x16, .f32⟩ : BufTy).Contents (Elt Ideal))
    (x2 : (⟨S16x256, .f32⟩ : BufTy).Contents (Elt Ideal)) (x3 : (⟨S524288, .i32⟩ : BufTy).Contents (Elt Ideal))
    (hr : Cert.Spec.InRange x3) :
    val_main_v28 (F := Ideal) x0 x1 x2 x3 = Cert.Spec.out x0 x1 x2 x3 := by
  funext i
  obtain ⟨n, c, rfl⟩ : ∃ n c, i = ix2 n c := ⟨i 0, i 1, eq_ix2 i⟩
  obtain ⟨h0, h8⟩ := hr n
  have hlt : (x3 (ix1 n)).toInt.toNat < 8 := by omega
  have hrow : min (val_main_v26 (F := Ideal) x3 (ix2 n 0)).toInt.toNat 7
      = (⟨(x3 (ix1 n)).toInt.toNat, hlt⟩ : Fin 8).val := by
    rw [wrap_eq x3 n h0]; show min _ 7 = (x3 (ix1 n)).toInt.toNat; omega
  rw [val_main_v28_apply]
  unfold val_main_v27
  rw [gather_apply _ _ n c _ hrow, gate_eq]
  have hsel : ∀ b : Fin 8, ((x3 (ix1 n)).toInt = (b.val : ℤ)) ↔ (⟨(x3 (ix1 n)).toInt.toNat, hlt⟩ : Fin 8) = b := fun b => by
    constructor
    · intro h; exact Fin.ext (by show (x3 (ix1 n)).toInt.toNat = b.val; omega)
    · intro h; have := congrArg Fin.val h; simp only at this; omega
  show x0 (ix2 n c) * _ = x0 (ix2 n c) * ∑ b : Fin 8, if (x3 (ix1 n)).toInt = (b.val : ℤ) then Cert.Spec.gate x0 x1 x2 x3 b c else 0
  rw [Finset.sum_congr rfl (fun b _ => if_congr (hsel b) rfl rfl), Finset.sum_ite_eq, if_pos (Finset.mem_univ _)]

end Cert.ReferenceIdeal.RefValue

end
-- ==== Proof.Val.Pre.lean ====
import proofs.«431042_j2559800508872_2_alg».proof.Pre_finite_inputs
import proofs.«431042_j2559800508872_2_alg».proof.Proof.Gen.Pre_finite_inputs
import proofs.«431042_j2559800508872_2_alg».proof.Proof.Val.Spec
import Idealize.ShloMosaic.Lib.ReduceAll
import Idealize.ShloMosaic.Lib.StableHlo.Predicate

set_option maxRecDepth 16384

noncomputable section

/-! The precondition, read: where the printed predicate is all ones, every index word, read signed, is at least zero
    and less than eight (its last two conjuncts: a signed compare against the broadcast constant, reduced by `and`
    over the vector). -/

namespace Cert.PreValue

open Idealize.ShloMosaic Idealize.ShloMosaic.ValueIdx

/-- The rank-zero shape has exactly one index. -/
private instance subsingleton_scalar_idx : Subsingleton Cert.Pre_finite_inputs.S_.Idx :=
  ⟨fun a b => funext fun d => d.elim0⟩

/-- A word that compares, signed, at least zero and less than eight has its signed value in [0, 8). -/
private theorem word_range (w : BitVec 32) (h0 : IntOp.cmpi .sge w (0#32) = 1#1) (h8 : IntOp.cmpi .slt w (8#32) = 1#1) :
    0 ≤ w.toInt ∧ w.toInt < 8 := by
  unfold IntOp.cmpi at h0 h8
  rw [StableHlo.Predicate.ofBool_eq_one_iff] at h0 h8
  simp only [BitVec.slt, BitVec.sle, decide_eq_true_eq] at h0 h8
  have z : (0#32 : BitVec 32).toInt = 0 := by decide
  have e : (8#32 : BitVec 32).toInt = 8 := by decide
  rw [z] at h0
  rw [e] at h8
  exact ⟨h0, h8⟩

theorem range_of_pre [hP : Cert.Pre_finite_inputs.Facts]
    (x0 : FVec Ideal Cert.Pre_finite_inputs.S524288x256 .f32) (x1 : FVec Ideal Cert.Pre_finite_inputs.S256x16 .f32)
    (x2 : FVec Ideal Cert.Pre_finite_inputs.S16x256 .f32) (x3 : IVec Cert.Pre_finite_inputs.S524288 32)
    (h : Cert.Pre_finite_inputs.fn (F := Ideal) x0 x1 x2 x3 = (fun _ => 1#1)) : Cert.Spec.InRange x3 := by
  -- the predicate at its one index: a conjunction whose last two conjuncts are the two reductions over the index words
  have e := congrFun h ValueIdx.ix0
  dsimp only [Cert.Pre_finite_inputs.fn, Cert.Pre_finite_inputs.fn_part1, andi] at e
  obtain ⟨e1, hlt⟩ := IntOp.andi_eq_one.1 e
  obtain ⟨-, hge⟩ := IntOp.andi_eq_one.1 e1
  intro n
  -- a conjunction over the whole vector that is one is one at every word
  have a := Host.reduce_andi_all _ _ _ _ _ hge (ix1 n)
  have b := Host.reduce_andi_all _ _ _ _ _ hlt (ix1 n)
  -- the compared constants are the broadcast words 0 and 8
  exact word_range (x3 (ix1 n)) a b

end Cert.PreValue

end
-- ==== Proof.lean ====
/- A sparse squeeze-and-excite layer against its jnp reference, over the extended reals.

   The kernel runs two grids of 64 tiles over the 524288 points. The first accumulates, per batch, the sum of the
   points' feature rows and their count — the tile's index column compared with 0..7 gives a 0/1 selector matrix whose
   transposed product with the tile is the tile's contribution — and at the last tile turns the sums into the gate
   (mean, a product floored at zero, a second product, the logistic). The second multiplies each point's feature row
   by the gate row its index selects, again as a product with the selector. The reference computes the same sums by
   accumulating scatters, the same gate stage by stage, and reads each point's gate row by a gather.

   On the extended reals a selector entry times a value is the value or zero (0 · x = 0 and 1 · x = x for every
   extended real, infinite ones included), addition is commutative and associative, so the tile-by-tile accumulation
   is the sum over all points, and both programs compute ONE function of the four arrays (`Cert.Spec.out`) — the kernel
   for every index vector, the reference where every index names a batch: outside 0..7 its gather clamps the row while
   the kernel's selector row is zero, which is why the precondition bounds the indices. Finiteness of the floats is not
   used.

   The frames: the reference's is its run with the result dropped; each kernel program's is the run of its three
   segments (a reshape, the pooling region with its two accumulators carried from tile to tile in the region
   invariant, the multiply region), from which the arguments are read back unchanged. The idealization rewrote
   nothing, so `preserves` is `True`. -/
import proofs.«431042_j2559800508872_2_alg».proof.Defs
import proofs.«431042_j2559800508872_2_alg».proof.Proof.Gen.Kernel
import proofs.«431042_j2559800508872_2_alg».proof.Proof.Gen.KernelIdeal
import proofs.«431042_j2559800508872_2_alg».proof.Proof.Gen.ReferenceIdeal
import proofs.«431042_j2559800508872_2_alg».proof.Proof.Gen.Pre_finite_inputs
import proofs.«431042_j2559800508872_2_alg».proof.Proof.Gen.ReferenceIdeal.Run
import proofs.«431042_j2559800508872_2_alg».proof.Proof.Gen.ReferenceIdeal.Read
import proofs.«431042_j2559800508872_2_alg».proof.Proof.K.Run
import proofs.«431042_j2559800508872_2_alg».proof.Proof.KI.Run
import proofs.«431042_j2559800508872_2_alg».proof.Proof.Val.MulValue
import proofs.«431042_j2559800508872_2_alg».proof.Proof.Val.Ref
import proofs.«431042_j2559800508872_2_alg».proof.Proof.Val.Pre
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k [Cert.Pre_finite_inputs.Facts] : Cert.frame_Kernel (hKernel := Cert.Kernel.Gen.facts) :=
  fun m ρ _ => Cert.Kernel.Hand.frame m ρ

/-- So does the idealized program. -/
theorem frame_ki [Cert.Pre_finite_inputs.Facts] : Cert.frame_KernelIdeal (hKernelIdeal := Cert.KernelIdeal.Gen.facts) :=
  fun m ρ _ => Cert.KernelIdeal.Hand.frame m ρ

/-- The reference's frame: its run, the result dropped. -/
theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories agreeing on the arguments both idealized programs end with the specification's value of those
    arguments in their result arrays: the kernel's run as read off its segments, the reference's generated run with
    its term read stage by stage, the index range decoded from the precondition. -/
theorem algebraic [hP : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨fun c => Cert.KernelIdeal.HandValue.specOut m c, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  have hr := Cert.PreValue.range_of_pre _ _ _ _ (hpre c)
  rw [(hagree c).1, (hagree c).2.1, (hagree c).2.2.1, (hagree c).2.2.2]
  exact (Cert.ReferenceIdeal.Read.val_main_v28_eq _ _ _ _).trans (Cert.ReferenceIdeal.RefValue.ref_value _ _ _ _ hr)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
